-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S180000x64 : Shape := ⟨2, ![180000, 64]⟩
abbrev S150000x64 : Shape := ⟨2, ![150000, 64]⟩
abbrev S32x64 : Shape := ⟨2, ![32, 64]⟩
abbrev S64x64 : Shape := ⟨2, ![64, 64]⟩
abbrev S2x1500000 : Shape := ⟨2, ![2, 1500000]⟩
abbrev S1500000 : Shape := ⟨1, ![1500000]⟩
abbrev S2x1000000 : Shape := ⟨2, ![2, 1000000]⟩
abbrev S1000000 : Shape := ⟨1, ![1000000]⟩
abbrev S_ : Shape := ⟨0, ![]⟩

class Facts : Prop where
  bcast_S_S180000x64 : S_.BroadcastsInDim S180000x64 (![] : Fin 0 → Fin S180000x64.rank)
  reducesTo_S180000x64_S_d0_1 : S180000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S180000x64 .f32) (main_arg1 : FVec F S150000x64 .f32) (main_arg2 : FVec F S32x64 .f32) (main_arg3 : FVec F S64x64 .f32) (main_arg4 : FVec F S64x64 .f32) (main_arg5 : FVec F S64x64 .f32) (main_arg6 : IVec S2x1500000 32) (main_arg7 : IVec S1500000 32) (main_arg8 : IVec S2x1000000 32) (main_arg9 : IVec S1000000 32) (main_arg10 : IVec S1500000 32) (main_arg11 : IVec S1500000 32) : IVec S_ 1 :=
  let main_v0 : FVec F S180000x64 .f32 := Host.absf main_arg0
  let main_cst : FVec F S_ .f32 := constant S_ .f32 0x7F800000#32
  let main_v1 : FVec F S180000x64 .f32 := broadcastInDim S180000x64 ![] bcast_S_S180000x64 main_cst
  let main_v2 : IVec S180000x64 1 := cmpf .olt main_v0 main_v1
  let main_c : IVec S_ 1 := constantI S_ 1 1#1
  let main_v3 : IVec S_ 1 := (fun x v => Host.reduce IntOp.andi x v reducesTo_S180000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S180000x64 : Shape := ⟨2, ![180000, 64]⟩
abbrev S150000x64 : Shape := ⟨2, ![150000, 64]⟩
abbrev S32x64 : Shape := ⟨2, ![32, 64]⟩
abbrev S64x64 : Shape := ⟨2, ![64, 64]⟩
abbrev S2x1500000 : Shape := ⟨2, ![2, 1500000]⟩
abbrev S1500000 : Shape := ⟨1, ![1500000]⟩
abbrev S2x1000000 : Shape := ⟨2, ![2, 1000000]⟩
abbrev S1000000 : Shape := ⟨1, ![1000000]⟩
abbrev S1x1500000 : Shape := ⟨2, ![1, 1500000]⟩
abbrev S_ : Shape := ⟨0, ![]⟩
abbrev S1500000x1 : Shape := ⟨2, ![1500000, 1]⟩
abbrev S1500000x64 : Shape := ⟨2, ![1500000, 64]⟩
abbrev S180000 : Shape := ⟨1, ![180000]⟩
abbrev S180000x1 : Shape := ⟨2, ![180000, 1]⟩
abbrev S1x1000000 : Shape := ⟨2, ![1, 1000000]⟩
abbrev S1000000x1 : Shape := ⟨2, ![1000000, 1]⟩
abbrev S1000000x64 : Shape := ⟨2, ![1000000, 64]⟩
abbrev S150000 : Shape := ⟨1, ![150000]⟩
abbrev S150000x1 : Shape := ⟨2, ![150000, 1]⟩
abbrev S1x64 : Shape := ⟨2, ![1, 64]⟩
abbrev S64 : Shape := ⟨1, ![64]⟩
abbrev S50000x64 : Shape := ⟨2, ![50000, 64]⟩
abbrev S50000 : Shape := ⟨1, ![50000]⟩
abbrev S50000x1 : Shape := ⟨2, ![50000, 1]⟩
abbrev S100000x64 : Shape := ⟨2, ![100000, 64]⟩
abbrev S100000 : Shape := ⟨1, ![100000]⟩
abbrev S100000x1 : Shape := ⟨2, ![100000, 1]⟩
abbrev S10000x64 : Shape := ⟨2, ![10000, 64]⟩

abbrev nBuf : Space → Nat
  | .hbm => 158
  | .vmem => 16
  | .smem => 0
  | _ => 0

abbrev hbmTy0_0 (i : Nat) : BufTy := match i % 128 with
  | 0 => ⟨S180000x64, .f32⟩
  | 1 => ⟨S150000x64, .f32⟩
  | 2 => ⟨S32x64, .f32⟩
  | 3 => ⟨S64x64, .f32⟩
  | 4 => ⟨S64x64, .f32⟩
  | 5 => ⟨S64x64, .f32⟩
  | 6 => ⟨S2x1500000, .i32⟩
  | 7 => ⟨S1500000, .i32⟩
  | 8 => ⟨S2x1000000, .i32⟩
  | 9 => ⟨S1000000, .i32⟩
  | 10 => ⟨S1500000, .i32⟩
  | 11 => ⟨S1500000, .i32⟩
  | 12 => ⟨S1x1500000, .i32⟩
  | 13 => ⟨S1500000, .i32⟩
  | 14 => ⟨S1x1500000, .i32⟩
  | 15 => ⟨S1500000, .i32⟩
  | 16 => ⟨S_, .i32⟩
  | 17 => ⟨S1500000, .i32⟩
  | 18 => ⟨S1500000, .i1⟩
  | 19 => ⟨S_, .i32⟩
  | 20 => ⟨S1500000, .i32⟩
  | 21 => ⟨S1500000, .i32⟩
  | 22 => ⟨S1500000, .i32⟩
  | 23 => ⟨S1500000x1, .i32⟩
  | 24 => ⟨S1500000x64, .f32⟩
  | 25 => ⟨S_, .i32⟩
  | 26 => ⟨S1500000, .i32⟩
  | 27 => ⟨S1500000, .i1⟩
  | 28 => ⟨S_, .i32⟩
  | 29 => ⟨S1500000, .i32⟩
  | 30 => ⟨S1500000, .i32⟩
  | 31 => ⟨S1500000, .i32⟩
  | 32 => ⟨S1500000x1, .i32⟩
  | 33 => ⟨S1500000x64, .f32⟩
  | 34 => ⟨S1500000x64, .f32⟩
  | 35 => ⟨S_, .f32⟩
  | 36 => ⟨S180000x64, .f32⟩
  | 37 => ⟨S1500000x1, .i32⟩
  | 38 => ⟨S180000x64, .f32⟩
  | 39 => ⟨S_, .f32⟩
  | 40 => ⟨S1500000, .f32⟩
  | 41 => ⟨S_, .f32⟩
  | 42 => ⟨S180000, .f32⟩
  | 43 => ⟨S1500000x1, .i32⟩
  | 44 => ⟨S180000, .f32⟩
  | 45 => ⟨S_, .f32⟩
  | 46 => ⟨S_, .f32⟩
  | 47 => ⟨S180000, .f32⟩
  | 48 => ⟨S180000, .f32⟩
  | 49 => ⟨S180000x1, .f32⟩
  | 50 => ⟨S180000x64, .f32⟩
  | 51 => ⟨S180000x64, .f32⟩
  | 52 => ⟨S1x1000000, .i32⟩
  | 53 => ⟨S1000000, .i32⟩
  | 54 => ⟨S1x1000000, .i32⟩
  | 55 => ⟨S1000000, .i32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1000000x64, .f32⟩
  | 75 => ⟨S_, .f32⟩
  | 76 => ⟨S150000x64, .f32⟩
  | 77 => ⟨S1000000x1, .i32⟩
  | 78 => ⟨S150000x64, .f32⟩
  | 79 => ⟨S_, .f32⟩
  | 80 => ⟨S1000000, .f32⟩
  | 81 => ⟨S_, .f32⟩
  | 82 => ⟨S150000, .f32⟩
  | 83 => ⟨S1000000x1, .i32⟩
  | 84 => ⟨S150000, .f32⟩
  | 85 => ⟨S_, .f32⟩
  | 86 => ⟨S_, .f32⟩
  | 87 => ⟨S150000, .f32⟩
  | 88 => ⟨S150000, .f32⟩
  | 89 => ⟨S150000x1, .f32⟩
  | 90 => ⟨S150000x64, .f32⟩
  | 91 => ⟨S150000x64, .f32⟩
  | 92 => ⟨S1x64, .f32⟩
  | 93 => ⟨S64, .f32⟩
  | 94 => ⟨S_, .i32⟩
  | 95 => ⟨S1500000, .i32⟩
  | 96 => ⟨S1500000, .i1⟩
  | 97 => ⟨S_, .i32⟩
  | 98 => ⟨S1500000, .i32⟩
  | 99 => ⟨S1500000, .i32⟩
  | 100 => ⟨S1500000, .i32⟩
  | 101 => ⟨S1500000x1, .i32⟩
  | 102 => ⟨S1500000x64, .f32⟩
  | 103 => ⟨S1x64, .f32⟩
  | 104 => ⟨S1500000x64, .f32⟩
  | 105 => ⟨S1500000x64, .f32⟩
  | 106 => ⟨S_, .f32⟩
  | 107 => ⟨S50000x64, .f32⟩
  | 108 => ⟨S1500000x1, .i32⟩
  | 109 => ⟨S50000x64, .f32⟩
  | 110 => ⟨S_, .f32⟩
  | 111 => ⟨S1500000, .f32⟩
  | 112 => ⟨S_, .f32⟩
  | 113 => ⟨S50000, .f32⟩
  | 114 => ⟨S1500000x1, .i32⟩
  | 115 => ⟨S50000, .f32⟩
  | 116 => ⟨S_, .f32⟩
  | 117 => ⟨S_, .f32⟩
  | 118 => ⟨S50000, .f32⟩
  | 119 => ⟨S50000, .f32⟩
  | 120 => ⟨S50000x1, .f32⟩
  | 121 => ⟨S50000x64, .f32⟩
  | 122 => ⟨S50000x64, .f32⟩
  | 123 => ⟨S_, .i32⟩
  | 124 => ⟨S1500000, .i32⟩
  | 125 => ⟨S1500000, .i1⟩
  | 126 => ⟨S_, .i32⟩
  | 127 => ⟨S1500000, .i32⟩
  | _ => ⟨S180000x64, .f32⟩

abbrev hbmTy0_1 (i : Nat) : BufTy := match i % 128 with
  | 0 => ⟨S1500000, .i32⟩
  | 1 => ⟨S1500000, .i32⟩
  | 2 => ⟨S1500000x1, .i32⟩
  | 3 => ⟨S1500000x64, .f32⟩
  | 4 => ⟨S1x64, .f32⟩
  | 5 => ⟨S1500000x64, .f32⟩
  | 6 => ⟨S1500000x64, .f32⟩
  | 7 => ⟨S_, .f32⟩
  | 8 => ⟨S100000x64, .f32⟩
  | 9 => ⟨S1500000x1, .i32⟩
  | 10 => ⟨S100000x64, .f32⟩
  | 11 => ⟨S_, .f32⟩
  | 12 => ⟨S1500000, .f32⟩
  | 13 => ⟨S_, .f32⟩
  | 14 => ⟨S100000, .f32⟩
  | 15 => ⟨S1500000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S100000x1, .f32⟩
  | 22 => ⟨S100000x64, .f32⟩
  | 23 => ⟨S100000x64, .f32⟩
  | 24 => ⟨S64x64, .f32⟩
  | 25 => ⟨S64x64, .f32⟩
  | 26 => ⟨S180000x64, .f32⟩
  | 27 => ⟨S64x64, .f32⟩
  | 28 => ⟨S64x64, .f32⟩
  | 29 => ⟨S150000x64, .f32⟩
  | _ => ⟨S180000x64, .f32⟩

abbrev hbmTy (i : Nat) : BufTy := match i / 128 with
  | 0 => hbmTy0_0 i
  | 1 => hbmTy0_1 i
  | _ => ⟨S180000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | _, _ => ⟨S180000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_call2_v0 : Ref sig .tc := ⟨.hbm, 117, rfl⟩
abbrev main_call2_v1 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_20 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_22 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_cst_24 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_25 : Ref sig .tc := ⟨.hbm, 145, rfl⟩
abbrev main_call3_v0 : Ref sig .tc := ⟨.hbm, 146, rfl⟩
abbrev main_call3_v1 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S180000x64 : S_.BroadcastsInDim S180000x64 (![] : Fin 0 → Fin S180000x64.rank)
  bcast_S_S180000 : S_.BroadcastsInDim S180000 (![] : Fin 0 → Fin S180000.rank)
  bcast_S180000_S180000x1_0 : S180000.BroadcastsInDim S180000x1 (![0] : Fin 1 → Fin S180000x1.rank)
  bcast_S180000x1_S180000x64_0_1 : S180000x1.BroadcastsInDim S180000x64 (![0, 1] : Fin 2 → Fin S180000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  slices_S32x64_S1x64_0_0 : S32x64.Slices ![0, 0] S1x64
  shapeCasts_S1x64_S64 : S1x64.ShapeCasts S64
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S180000x64_S1500000x1_S1500000x64_1_0_n_n_0_1_164_wf : GatherDims.WF S180000x64 S1500000x1 S1500000x64 [1] [0] [] [0] [] 1 ![1, 64]
  gather_S32x64_S1500000x1_S1500000x64_1_0_n_n_0_1_164_wf : GatherDims.WF S32x64 S1500000x1 S1500000x64 [1] [0] [] [0] [] 1 ![1, 64]
  scatter_S180000x64_S1500000x1_S1500000x64_1_0_0_1_wf : ScatterDims.WF S180000x64 S1500000x1 S1500000x64 [1] [0] [0] 1
  scatter_S180000_S1500000x1_S1500000_n_0_0_1_wf : ScatterDims.WF S180000 S1500000x1 S1500000 [] [0] [0] 1
  gather_S150000x64_S1000000x1_S1000000x64_1_0_n_n_0_1_164_wf : GatherDims.WF S150000x64 S1000000x1 S1000000x64 [1] [0] [] [0] [] 1 ![1, 64]
  gather_S32x64_S1000000x1_S1000000x64_1_0_n_n_0_1_164_wf : GatherDims.WF S32x64 S1000000x1 S1000000x64 [1] [0] [] [0] [] 1 ![1, 64]
  scatter_S150000x64_S1000000x1_S1000000x64_1_0_0_1_wf : ScatterDims.WF S150000x64 S1000000x1 S1000000x64 [1] [0] [0] 1
  scatter_S150000_S1000000x1_S1000000_n_0_0_1_wf : ScatterDims.WF S150000 S1000000x1 S1000000 [] [0] [0] 1
  gather_S150000x64_S1500000x1_S1500000x64_1_0_n_n_0_1_164_wf : GatherDims.WF S150000x64 S1500000x1 S1500000x64 [1] [0] [] [0] [] 1 ![1, 64]
  scatter_S50000x64_S1500000x1_S1500000x64_1_0_0_1_wf : ScatterDims.WF S50000x64 S1500000x1 S1500000x64 [1] [0] [0] 1
  scatter_S50000_S1500000x1_S1500000_n_0_0_1_wf : ScatterDims.WF S50000 S1500000x1 S1500000 [] [0] [0] 1
  scatter_S100000x64_S1500000x1_S1500000x64_1_0_0_1_wf : ScatterDims.WF S100000x64 S1500000x1 S1500000x64 [1] [0] [0] 1
  scatter_S100000_S1500000x1_S1500000_n_0_0_1_wf : ScatterDims.WF S100000 S1500000x1 S1500000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S180000x64.size a
  hwx0_0 : ∀ i : grid0.Coords, EltTy.bits .f32 = 32 ∨ (Rect.block (s := S180000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S180000x64.size a
  hwx0_4 : ∀ i : grid0.Coords, EltTy.bits .f32 = 32 ∨ (Rect.block (s := S180000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S150000x64.size a
  hwx1_4 : ∀ i : grid1.Coords, EltTy.bits .f32 = 32 ∨ (Rect.block (s := S150000x64) S10000x64.size (cc1_transform_4 i) (hinb1_4 i)).WholeWords (EltTy.packing .f32)

variable [Facts₀]

def gather_S180000x64_S1500000x1_S1500000x64_1_0_n_n_0_1_164 : GatherDims S180000x64 S1500000x1 S1500000x64 where
  offsetDims := [1]
  collapsedSliceDims := [0]
  operandBatchingDims := []
  startIndicesBatchingDims := []
  startIndexMap := [0]
  indexVectorDim := 1
  sliceSizes := ![1, 64]
  wf := gather_S180000x64_S1500000x1_S1500000x64_1_0_n_n_0_1_164_wf
def gather_S32x64_S1500000x1_S1500000x64_1_0_n_n_0_1_164 : GatherDims S32x64 S1500000x1 S1500000x64 where
  offsetDims := [1]
  collapsedSliceDims := [0]
  operandBatchingDims := []
  startIndicesBatchingDims := []
  startIndexMap := [0]
  indexVectorDim := 1
  sliceSizes := ![1, 64]
  wf := gather_S32x64_S1500000x1_S1500000x64_1_0_n_n_0_1_164_wf
def scatter_S180000x64_S1500000x1_S1500000x64_1_0_0_1 : ScatterDims S180000x64 S1500000x1 S1500000x64 where
  updateWindowDims := [1]
  insertedWindowDims := [0]
  scatterDimsToOperandDims := [0]
  indexVectorDim := 1
  wf := scatter_S180000x64_S1500000x1_S1500000x64_1_0_0_1_wf
def scatter_S180000_S1500000x1_S1500000_n_0_0_1 : ScatterDims S180000 S1500000x1 S1500000 where
  updateWindowDims := []
  insertedWindowDims := [0]
  scatterDimsToOperandDims := [0]
  indexVectorDim := 1
  wf := scatter_S180000_S1500000x1_S1500000_n_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def gather_S32x64_S1000000x1_S1000000x64_1_0_n_n_0_1_164 : GatherDims S32x64 S1000000x1 S1000000x64 where
  offsetDims := [1]
  collapsedSliceDims := [0]
  operandBatchingDims := []
  startIndicesBatchingDims := []
  startIndexMap := [0]
  indexVectorDim := 1
  sliceSizes := ![1, 64]
  wf := gather_S32x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000x64_S1500000x1_S1500000x64_1_0_n_n_0_1_164 : GatherDims S150000x64 S1500000x1 S1500000x64 where
  offsetDims := [1]
  collapsedSliceDims := [0]
  operandBatchingDims := []
  startIndicesBatchingDims := []
  startIndexMap := [0]
  indexVectorDim := 1
  sliceSizes := ![1, 64]
  wf := gather_S150000x64_S1500000x1_S1500000x64_1_0_n_n_0_1_164_wf
def scatter_S50000x64_S1500000x1_S1500000x64_1_0_0_1 : ScatterDims S50000x64 S1500000x1 S1500000x64 where
  updateWindowDims := [1]
  insertedWindowDims := [0]
  scatterDimsToOperandDims := [0]
  indexVectorDim := 1
  wf := scatter_S50000x64_S1500000x1_S1500000x64_1_0_0_1_wf
def scatter_S50000_S1500000x1_S1500000_n_0_0_1 : ScatterDims S50000 S1500000x1 S1500000 where
  updateWindowDims := []
  insertedWindowDims := [0]
  scatterDimsToOperandDims := [0]
  indexVectorDim := 1
  wf := scatter_S50000_S1500000x1_S1500000_n_0_0_1_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v104) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v105) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v106) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v59) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v103) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v107) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v108) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  halias0_4 : Pipeline.Aliased win0 0 4
  halias1_4 : Pipeline.Aliased win1 0 4

variable [Facts]
-- ==== ReferenceIdeal.lean ====
abbrev S180000x64 : Shape := ⟨2, ![180000, 64]⟩
abbrev S150000x64 : Shape := ⟨2, ![150000, 64]⟩
abbrev S32x64 : Shape := ⟨2, ![32, 64]⟩
abbrev S64x64 : Shape := ⟨2, ![64, 64]⟩
abbrev S2x1500000 : Shape := ⟨2, ![2, 1500000]⟩
abbrev S1500000 : Shape := ⟨1, ![1500000]⟩
abbrev S2x1000000 : Shape := ⟨2, ![2, 1000000]⟩
abbrev S1000000 : Shape := ⟨1, ![1000000]⟩
abbrev S1x1500000 : Shape := ⟨2, ![1, 1500000]⟩
abbrev S_ : Shape := ⟨0, ![]⟩
abbrev S1500000x1 : Shape := ⟨2, ![1500000, 1]⟩
abbrev S1500000x64 : Shape := ⟨2, ![1500000, 64]⟩
abbrev S180000 : Shape := ⟨1, ![180000]⟩
abbrev S180000x1 : Shape := ⟨2, ![180000, 1]⟩
abbrev S1x1000000 : Shape := ⟨2, ![1, 1000000]⟩
abbrev S1000000x1 : Shape := ⟨2, ![1000000, 1]⟩
abbrev S1000000x64 : Shape := ⟨2, ![1000000, 64]⟩
abbrev S150000 : Shape := ⟨1, ![150000]⟩
abbrev S150000x1 : Shape := ⟨2, ![150000, 1]⟩
abbrev S50000x64 : Shape := ⟨2, ![50000, 64]⟩
abbrev S1x64 : Shape := ⟨2, ![1, 64]⟩
abbrev S64 : Shape := ⟨1, ![64]⟩
abbrev S50000 : Shape := ⟨1, ![50000]⟩
abbrev S50000x1 : Shape := ⟨2, ![50000, 1]⟩
abbrev S100000x64 : Shape := ⟨2, ![100000, 64]⟩
abbrev S100000 : Shape := ⟨1, ![100000]⟩
abbrev S100000x1 : Shape := ⟨2, ![100000, 1]⟩
abbrev S130000x64 : Shape := ⟨2, ![130000, 64]⟩

abbrev nBuf : Space → Nat
  | .hbm => 198
  | .vmem => 0
  | .smem => 0
  | _ => 0

abbrev hbmTy0_0 (i : Nat) : BufTy := match i % 128 with
  | 0 => ⟨S180000x64, .f32⟩
  | 1 => ⟨S150000x64, .f32⟩
  | 2 => ⟨S32x64, .f32⟩
  | 3 => ⟨S64x64, .f32⟩
  | 4 => ⟨S64x64, .f32⟩
  | 5 => ⟨S64x64, .f32⟩
  | 6 => ⟨S2x1500000, .i32⟩
  | 7 => ⟨S1500000, .i32⟩
  | 8 => ⟨S2x1000000, .i32⟩
  | 9 => ⟨S1000000, .i32⟩
  | 10 => ⟨S1500000, .i32⟩
  | 11 => ⟨S1500000, .i32⟩
  | 12 => ⟨S1x1500000, .i32⟩
  | 13 => ⟨S1500000, .i32⟩
  | 14 => ⟨S1x1500000, .i32⟩
  | 15 => ⟨S1500000, .i32⟩
  | 16 => ⟨S_, .i32⟩
  | 17 => ⟨S1500000, .i32⟩
  | 18 => ⟨S1500000, .i1⟩
  | 19 => ⟨S_, .i32⟩
  | 20 => ⟨S1500000, .i32⟩
  | 21 => ⟨S1500000, .i32⟩
  | 22 => ⟨S1500000, .i32⟩
  | 23 => ⟨S1500000x1, .i32⟩
  | 24 => ⟨S1500000x64, .f32⟩
  | 25 => ⟨S_, .i32⟩
  | 26 => ⟨S1500000, .i32⟩
  | 27 => ⟨S1500000, .i1⟩
  | 28 => ⟨S_, .i32⟩
  | 29 => ⟨S1500000, .i32⟩
  | 30 => ⟨S1500000, .i32⟩
  | 31 => ⟨S1500000, .i32⟩
  | 32 => ⟨S1500000x1, .i32⟩
  | 33 => ⟨S1500000x64, .f32⟩
  | 34 => ⟨S1500000x64, .f32⟩
  | 35 => ⟨S_, .f32⟩
  | 36 => ⟨S180000x64, .f32⟩
  | 37 => ⟨S1500000x1, .i32⟩
  | 38 => ⟨S180000x64, .f32⟩
  | 39 => ⟨S_, .f32⟩
  | 40 => ⟨S1500000, .f32⟩
  | 41 => ⟨S_, .f32⟩
  | 42 => ⟨S180000, .f32⟩
  | 43 => ⟨S1500000x1, .i32⟩
  | 44 => ⟨S180000, .f32⟩
  | 45 => ⟨S_, .f32⟩
  | 46 => ⟨S_, .f32⟩
  | 47 => ⟨S180000, .f32⟩
  | 48 => ⟨S180000, .f32⟩
  | 49 => ⟨S180000x1, .f32⟩
  | 50 => ⟨S180000x64, .f32⟩
  | 51 => ⟨S180000x64, .f32⟩
  | 52 => ⟨S1x1000000, .i32⟩
  | 53 => ⟨S1000000, .i32⟩
  | 54 => ⟨S1x1000000, .i32⟩
  | 55 => ⟨S1000000, .i32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S1000000x64, .f32⟩
  | 75 => ⟨S_, .f32⟩
  | 76 => ⟨S150000x64, .f32⟩
  | 77 => ⟨S1000000x1, .i32⟩
  | 78 => ⟨S150000x64, .f32⟩
  | 79 => ⟨S_, .f32⟩
  | 80 => ⟨S1000000, .f32⟩
  | 81 => ⟨S_, .f32⟩
  | 82 => ⟨S150000, .f32⟩
  | 83 => ⟨S1000000x1, .i32⟩
  | 84 => ⟨S150000, .f32⟩
  | 85 => ⟨S_, .f32⟩
  | 86 => ⟨S_, .f32⟩
  | 87 => ⟨S150000, .f32⟩
  | 88 => ⟨S150000, .f32⟩
  | 89 => ⟨S150000x1, .f32⟩
  | 90 => ⟨S150000x64, .f32⟩
  | 91 => ⟨S150000x64, .f32⟩
  | 92 => ⟨S50000x64, .f32⟩
  | 93 => ⟨S_, .i32⟩
  | 94 => ⟨S1500000, .i32⟩
  | 95 => ⟨S1500000, .i1⟩
  | 96 => ⟨S_, .i32⟩
  | 97 => ⟨S1500000, .i32⟩
  | 98 => ⟨S1500000, .i32⟩
  | 99 => ⟨S1500000, .i32⟩
  | 100 => ⟨S1500000x1, .i32⟩
  | 101 => ⟨S1500000x64, .f32⟩
  | 102 => ⟨S1x64, .f32⟩
  | 103 => ⟨S64, .f32⟩
  | 104 => ⟨S1x64, .f32⟩
  | 105 => ⟨S1500000x64, .f32⟩
  | 106 => ⟨S1500000x64, .f32⟩
  | 107 => ⟨S_, .f32⟩
  | 108 => ⟨S50000x64, .f32⟩
  | 109 => ⟨S1500000x1, .i32⟩
  | 110 => ⟨S50000x64, .f32⟩
  | 111 => ⟨S_, .f32⟩
  | 112 => ⟨S1500000, .f32⟩
  | 113 => ⟨S_, .f32⟩
  | 114 => ⟨S50000, .f32⟩
  | 115 => ⟨S1500000x1, .i32⟩
  | 116 => ⟨S50000, .f32⟩
  | 117 => ⟨S_, .f32⟩
  | 118 => ⟨S_, .f32⟩
  | 119 => ⟨S50000, .f32⟩
  | 120 => ⟨S50000, .f32⟩
  | 121 => ⟨S50000x1, .f32⟩
  | 122 => ⟨S50000x64, .f32⟩
  | 123 => ⟨S50000x64, .f32⟩
  | 124 => ⟨S64x64, .f32⟩
  | 125 => ⟨S50000x64, .f32⟩
  | 126 => ⟨S64x64, .f32⟩
  | 127 => ⟨S50000x64, .f32⟩
  | _ => ⟨S180000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S50000x64, .f32⟩
  | 15 => ⟨S100000x64, .f32⟩
  | 16 => ⟨S_, .i32⟩
  | 17 => ⟨S1500000, .i32⟩
  | 18 => ⟨S1500000, .i1⟩
  | 19 => ⟨S_, .i32⟩
  | 20 => ⟨S1500000, .i32⟩
  | 21 => ⟨S1500000, .i32⟩
  | 22 => ⟨S1500000, .i32⟩
  | 23 => ⟨S1500000x1, .i32⟩
  | 24 => ⟨S1500000x64, .f32⟩
  | 25 => ⟨S1x64, .f32⟩
  | 26 => ⟨S64, .f32⟩
  | 27 => ⟨S1x64, .f32⟩
  | 28 => ⟨S1500000x64, .f32⟩
  | 29 => ⟨S1500000x64, .f32⟩
  | 30 => ⟨S_, .f32⟩
  | 31 => ⟨S100000x64, .f32⟩
  | 32 => ⟨S1500000x1, .i32⟩
  | 33 => ⟨S100000x64, .f32⟩
  | 34 => ⟨S_, .f32⟩
  | 35 => ⟨S1500000, .f32⟩
  | 36 => ⟨S_, .f32⟩
  | 37 => ⟨S100000, .f32⟩
  | 38 => ⟨S1500000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S64x64, .f32⟩
  | 48 => ⟨S100000x64, .f32⟩
  | 49 => ⟨S64x64, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S100000x64, .f32⟩
  | 66 => ⟨S130000x64, .f32⟩
  | 67 => ⟨S180000x64, .f32⟩
  | 68 => ⟨S50000x64, .f32⟩
  | 69 => ⟨S150000x64, .f32⟩
  | _ => ⟨S180000x64, .f32⟩

abbrev hbmTy (i : Nat) : BufTy := match i / 128 with
  | 0 => hbmTy0_0 i
  | 1 => hbmTy0_1 i
  | _ => ⟨S180000x64, .f32⟩

abbrev bufTy : (tb : Table) → Fin (tcTables nBuf tb) → BufTy
  | .hbm, ⟨i, _⟩ => hbmTy i
  | _, _ => ⟨S180000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_call2_v0 : Ref sig .tc := ⟨.hbm, 118, rfl⟩
abbrev main_call2_v1 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_cst_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_26 : Ref sig .tc := ⟨.hbm, 162, rfl⟩
abbrev main_v116 : Ref sig .tc := ⟨.hbm, 163, rfl⟩
abbrev main_cst_27 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_28 : Ref sig .tc := ⟨.hbm, 168, rfl⟩
abbrev main_call3_v0 : Ref sig .tc := ⟨.hbm, 169, rfl⟩
abbrev main_call3_v1 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_29 : Ref sig .tc := ⟨.hbm, 182, rfl⟩
abbrev main_v131 : Ref sig .tc := ⟨.hbm, 183, rfl⟩
abbrev main_v132 : Ref sig .tc := ⟨.hbm, 184, rfl⟩
abbrev main_cst_30 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_31 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]

class Facts₀ : Prop where
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S180000x64 : S_.BroadcastsInDim S180000x64 (![] : Fin 0 → Fin S180000x64.rank)
  bcast_S_S180000 : S_.BroadcastsInDim S180000 (![] : Fin 0 → Fin S180000.rank)
  bcast_S180000_S180000x1_0 : S180000.BroadcastsInDim S180000x1 (![0] : Fin 1 → Fin S180000x1.rank)
  bcast_S180000x1_S180000x64_0_1 : S180000x1.BroadcastsInDim S180000x64 (![0, 1] : Fin 2 → Fin S180000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  slices_S180000x64_S50000x64_0_0 : S180000x64.Slices ![0, 0] S50000x64
  slices_S32x64_S1x64_0_0 : S32x64.Slices ![0, 0] S1x64
  shapeCasts_S1x64_S64 : S1x64.ShapeCasts S64
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  slices_S150000x64_S100000x64_0_0 : S150000x64.Slices ![0, 0] S100000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S180000x64_S130000x64_50000_0 : S180000x64.Slices ![50000, 0] S130000x64
  concatenates_S50000x64_S130000x64_S180000x64_d0 : Shape.Concatenates [S50000x64, S130000x64] S180000x64 0
  slices_S150000x64_S50000x64_100000_0 : S150000x64.Slices ![100000, 0] S50000x64
  concatenates_S100000x64_S50000x64_S150000x64_d0 : Shape.Concatenates [S100000x64, S50000x64] S150000x64 0
  gather_S180000x64_S1500000x1_S1500000x64_1_0_n_n_0_1_164_wf : GatherDims.WF S180000x64 S1500000x1 S1500000x64 [1] [0] [] [0] [] 1 ![1, 64]
  gather_S32x64_S1500000x1_S1500000x64_1_0_n_n_0_1_164_wf : GatherDims.WF S32x64 S1500000x1 S1500000x64 [1] [0] [] [0] [] 1 ![1, 64]
  scatter_S180000x64_S1500000x1_S1500000x64_1_0_0_1_wf : ScatterDims.WF S180000x64 S1500000x1 S1500000x64 [1] [0] [0] 1
  scatter_S180000_S1500000x1_S1500000_n_0_0_1_wf : ScatterDims.WF S180000 S1500000x1 S1500000 [] [0] [0] 1
  gather_S150000x64_S1000000x1_S1000000x64_1_0_n_n_0_1_164_wf : GatherDims.WF S150000x64 S1000000x1 S1000000x64 [1] [0] [] [0] [] 1 ![1, 64]
  gather_S32x64_S1000000x1_S1000000x64_1_0_n_n_0_1_164_wf : GatherDims.WF S32x64 S1000000x1 S1000000x64 [1] [0] [] [0] [] 1 ![1, 64]
  scatter_S150000x64_S1000000x1_S1000000x64_1_0_0_1_wf : ScatterDims.WF S150000x64 S1000000x1 S1000000x64 [1] [0] [0] 1
  scatter_S150000_S1000000x1_S1000000_n_0_0_1_wf : ScatterDims.WF S150000 S1000000x1 S1000000 [] [0] [0] 1
  gather_S150000x64_S1500000x1_S1500000x64_1_0_n_n_0_1_164_wf : GatherDims.WF S150000x64 S1500000x1 S1500000x64 [1] [0] [] [0] [] 1 ![1, 64]
  scatter_S50000x64_S1500000x1_S1500000x64_1_0_0_1_wf : ScatterDims.WF S50000x64 S1500000x1 S1500000x64 [1] [0] [0] 1
  scatter_S50000_S1500000x1_S1500000_n_0_0_1_wf : ScatterDims.WF S50000 S1500000x1 S1500000 [] [0] [0] 1
  dot_S50000x64_S64x64_S50000x64_1_0_0_1_n_n_wf : DotDims.WF S50000x64 S64x64 S50000x64 [1] [0] [0] [1] [] []
  scatter_S100000x64_S1500000x1_S1500000x64_1_0_0_1_wf : ScatterDims.WF S100000x64 S1500000x1 S1500000x64 [1] [0] [0] 1
  scatter_S100000_S1500000x1_S1500000_n_0_0_1_wf : ScatterDims.WF S100000 S1500000x1 S1500000 [] [0] [0] 1
  dot_S100000x64_S64x64_S100000x64_1_0_0_1_n_n_wf : DotDims.WF S100000x64 S64x64 S100000x64 [1] [0] [0] [1] [] []

variable [Facts₀]

def gather_S180000x64_S1500000x1_S1500000x64_1_0_n_n_0_1_164 : GatherDims S180000x64 S1500000x1 S1500000x64 where
  offsetDims := [1]
  collapsedSliceDims := [0]
  operandBatchingDims := []
  startIndicesBatchingDims := []
  startIndexMap := [0]
  indexVectorDim := 1
  sliceSizes := ![1, 64]
  wf := gather_S180000x64_S1500000x1_S1500000x64_1_0_n_n_0_1_164_wf
def gather_S32x64_S1500000x1_S1500000x64_1_0_n_n_0_1_164 : GatherDims S32x64 S1500000x1 S1500000x64 where
  offsetDims := [1]
  collapsedSliceDims := [0]
  operandBatchingDims := []
  startIndicesBatchingDims := []
  startIndexMap := [0]
  indexVectorDim := 1
  sliceSizes := ![1, 64]
  wf := gather_S32x64_S1500000x1_S1500000x64_1_0_n_n_0_1_164_wf
def scatter_S180000x64_S1500000x1_S1500000x64_1_0_0_1 : ScatterDims S180000x64 S1500000x1 S1500000x64 where
  updateWindowDims := [1]
  insertedWindowDims := [0]
  scatterDimsToOperandDims := [0]
  indexVectorDim := 1
  wf := scatter_S180000x64_S1500000x1_S1500000x64_1_0_0_1_wf
def scatter_S180000_S1500000x1_S1500000_n_0_0_1 : ScatterDims S180000 S1500000x1 S1500000 where
  updateWindowDims := []
  insertedWindowDims := [0]
  scatterDimsToOperandDims := [0]
  indexVectorDim := 1
  wf := scatter_S180000_S1500000x1_S1500000_n_0_0_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def gather_S32x64_S1000000x1_S1000000x64_1_0_n_n_0_1_164 : GatherDims S32x64 S1000000x1 S1000000x64 where
  offsetDims := [1]
  collapsedSliceDims := [0]
  operandBatchingDims := []
  startIndicesBatchingDims := []
  startIndexMap := [0]
  indexVectorDim := 1
  sliceSizes := ![1, 64]
  wf := gather_S32x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000x64_S1500000x1_S1500000x64_1_0_n_n_0_1_164 : GatherDims S150000x64 S1500000x1 S1500000x64 where
  offsetDims := [1]
  collapsedSliceDims := [0]
  operandBatchingDims := []
  startIndicesBatchingDims := []
  startIndexMap := [0]
  indexVectorDim := 1
  sliceSizes := ![1, 64]
  wf := gather_S150000x64_S1500000x1_S1500000x64_1_0_n_n_0_1_164_wf
def scatter_S50000x64_S1500000x1_S1500000x64_1_0_0_1 : ScatterDims S50000x64 S1500000x1 S1500000x64 where
  updateWindowDims := [1]
  insertedWindowDims := [0]
  scatterDimsToOperandDims := [0]
  indexVectorDim := 1
  wf := scatter_S50000x64_S1500000x1_S1500000x64_1_0_0_1_wf
def scatter_S50000_S1500000x1_S1500000_n_0_0_1 : ScatterDims S50000 S1500000x1 S1500000 where
  updateWindowDims := []
  insertedWindowDims := [0]
  scatterDimsToOperandDims := [0]
  indexVectorDim := 1
  wf := scatter_S50000_S1500000x1_S1500000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S100000x64_S1500000x1_S1500000x64_1_0_0_1 : ScatterDims S100000x64 S1500000x1 S1500000x64 where
  updateWindowDims := [1]
  insertedWindowDims := [0]
  scatterDimsToOperandDims := [0]
  indexVectorDim := 1
  wf := scatter_S100000x64_S1500000x1_S1500000x64_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Fusion.lean ====
/-
  The mathematics of the gated fusion, with no program in sight.

  Two arrays of rows of 64 entries, `a` and `b`, and two 64 × 64 matrices `u` and `v` give, at row `p` and
  column `q`, the gate's argument  s = Σ_k a[p,k]·u[k,q] + Σ_k b[p,k]·v[k,q],  the gate  g = logistic s,  and the
  blend  g·a[p,q] + (1 − g)·b[p,q].  All of it on the extended reals, where a float is an exact value: the sums are
  exact sums, `logistic s` is `1 / (1 + e^(−s))` with its limits at the infinities, and the literal `1` of the blend
  is the value of the float word `0x3F800000`.

  `fusedRows` is the array a gated-fusion stage leaves when it overwrites the first `n` rows of an array `A` of `N`
  rows with the blend of those rows against `b` and keeps the other rows of `A`.

  The one law used later: the gate's argument does not depend on the order of its two sums (addition of extended
  reals commutes, at the infinities too).
-/
import Idealize.ShloMosaic.PureOps.Ideal
import Idealize.ShloMosaic.Lib.ValueIdx

noncomputable section

open scoped BigOperators

namespace Cert.Fusion

open Idealize.ShloMosaic Idealize.ShloMosaic.ValueIdx

/-- Arrays of `n` rows of 64 extended reals, and 64 × 64 matrices, as functions of a rank-2 index. -/
abbrev Rows (n : Nat) : Type := (⟨2, ![n, 64]⟩ : Shape).Idx → EReal

/-- The float word of `1.0`, read exactly. -/
abbrev one32 : EReal := Ideal.ofBits .f32 0x3F800000#32

/-- That word denotes the real number one. -/
theorem one32_eq : one32 = 1 := by
  simp [one32, Ideal.ofBits, Ideal.ieee, -EReal.coe_mul]; norm_num

/-- The host's expansion of the logistic function, `1 / (1 + e^(−s))` spelt with the float word of `1.0`, is the logistic
    function: on the extended reals that is its definition, limits at the infinities included. -/
theorem logistic_expanded (s : EReal) :
    FloatOps.hostDivf (F := Ideal) (φ := .f32) (FloatOps.ofBits .f32 0x3F800000#32)
        (FloatOps.addf (FloatOps.ofBits .f32 0x3F800000#32) (FloatOps.hostUnary .exp (FloatOps.hostNegf s)))
      = Ideal.logistic s := by
  rw [show FloatOps.ofBits (F := Ideal) .f32 0x3F800000#32 = (1 : EReal) from one32_eq]
  rfl

/-- The gate's argument at row `p`, column `q`: row `p` of `a` against column `q` of `u`, plus row `p` of `b`
    against column `q` of `v`. -/
def gateArg {n : Nat} (a b : Rows n) (u v : Rows 64) (p : Fin n) (q : Fin 64) : EReal :=
  (∑ k : Fin 64, a (ix2 p k) * u (ix2 k q)) + (∑ k : Fin 64, b (ix2 p k) * v (ix2 k q))

/-- The two sums of the gate's argument may be taken in either order. -/
theorem gateArg_comm {n : Nat} (a b : Rows n) (u v : Rows 64) (p : Fin n) (q : Fin 64) :
    (∑ k : Fin 64, b (ix2 p k) * v (ix2 k q)) + (∑ k : Fin 64, a (ix2 p k) * u (ix2 k q)) = gateArg a b u v p q :=
  add_comm _ _

/-- The blend of `x` and `y` under the gate `logistic s`. -/
def blend (s x y : EReal) : EReal := Ideal.logistic s * x + (one32 - Ideal.logistic s) * y

/-- The fused entry at row `p`, column `q`. -/
def fusedAt {n : Nat} (a b : Rows n) (u v : Rows 64) (p : Fin n) (q : Fin 64) : EReal :=
  blend (gateArg a b u v p q) (a (ix2 p q)) (b (ix2 p q))

/-- The first `n` rows of an array of `N ≥ n` rows. -/
def topRows {N n : Nat} (hn : n ≤ N) (A : Rows N) : Rows n :=
  fun j => A (ix2 ⟨(j 0).val, lt_of_lt_of_le (idx2_lt0 j) hn⟩ ⟨(j 1).val, idx2_lt1 j⟩)

theorem topRows_apply {N n : Nat} (hn : n ≤ N) (A : Rows N) (p : Fin n) (q : Fin 64) :
    topRows hn A (ix2 p q) = A (ix2 ⟨p.val, lt_of_lt_of_le p.isLt hn⟩ q) := rfl

/-- What a fusion stage leaves in an array `A` of `N` rows: its first `n` rows blended against `b`, the rest kept. -/
def fusedRows {N n : Nat} (hn : n ≤ N) (A : Rows N) (b : Rows n) (u v : Rows 64) : Rows N :=
  fun i => if h : (i 0).val < n then fusedAt (topRows hn A) b u v ⟨(i 0).val, h⟩ ⟨(i 1).val, idx2_lt1 i⟩ else A i

/-- Inside the fused rows. -/
theorem fusedRows_of_lt {N n : Nat} (hn : n ≤ N) (A : Rows N) (b : Rows n) (u v : Rows 64) (P : Fin N) (q : Fin 64)
    (h : P.val < n) : fusedRows hn A b u v (ix2 P q) = fusedAt (topRows hn A) b u v ⟨P.val, h⟩ q := by
  unfold fusedRows
  exact dif_pos h

/-- Below them. -/
theorem fusedRows_of_le {N n : Nat} (hn : n ≤ N) (A : Rows N) (b : Rows n) (u v : Rows 64) (i : (⟨2, ![N, 64]⟩ : Shape).Idx)
    (h : n ≤ (i 0).val) : fusedRows hn A b u v i = A i := by
  unfold fusedRows
  exact dif_neg (by omega)

/-- A BLOCK of fused entries is a block of `fusedRows`. Let `x0`, `x1` be the rows `r0 … r0 + n' − 1` of `A` and of `b`
    (all of them among the first `n` rows) and `x2`, `x3` the matrices `u`, `v`; then the fused entry of the blocks at row
    `p` is the entry of `fusedRows` at row `r0 + p`. -/
theorem fusedAt_block {N n n' : Nat} (hn : n ≤ N) (A : Rows N) (b : Rows n) (u v : Rows 64) (r0 : Nat) (hr : r0 + n' ≤ n)
    (x0 x1 : Rows n') (x2 x3 : Rows 64)
    (h0 : ∀ (p : Fin n') (k : Fin 64), x0 (ix2 p k) = A (ix2 ⟨r0 + p.val, by have := p.isLt; omega⟩ k))
    (h1 : ∀ (p : Fin n') (k : Fin 64), x1 (ix2 p k) = b (ix2 ⟨r0 + p.val, by have := p.isLt; omega⟩ k))
    (h2 : ∀ (k q : Fin 64), x2 (ix2 k q) = u (ix2 k q)) (h3 : ∀ (k q : Fin 64), x3 (ix2 k q) = v (ix2 k q))
    (p : Fin n') (q : Fin 64) :
    fusedAt x0 x1 x2 x3 p q = fusedRows hn A b u v (ix2 ⟨r0 + p.val, by have := p.isLt; omega⟩ q) := by
  have hlt : r0 + p.val < n := by have := p.isLt; omega
  rw [fusedRows_of_lt hn A b u v ⟨r0 + p.val, by omega⟩ q hlt]
  unfold fusedAt gateArg
  simp only [h0, h1, h2, h3, topRows_apply]

end Cert.Fusion

end
-- ==== Proof.KernelPayload.lean ====
/-
  What one grid point of a fusion stage stores, entry by entry.

  The body loads a block `a` of 10000 rows of the array it fuses in place, the matching block `b` of the other
  aggregate, and the two 64 × 64 matrices `u`, `v`; it stores  logistic(a·u + b·v) ⊙ a + (1 − logistic(a·u + b·v)) ⊙ b.
  On the extended reals a matrix product into a zero accumulator is, at row `p` and column `q`, the plain sum over
  `k` of  a[p,k]·u[k,q]  (one contracted axis, re-indexed by its one coordinate), so the stored value at `(p, q)` is
  the fused entry `Fusion.fusedAt a b u v p q`. Both stages have the same body.
-/
import proofs.«406445_j79602923864073_3_alg».proof.Proof.Gen.KernelIdeal.Skeleton
import proofs.«406445_j79602923864073_3_alg».proof.Proof.Fusion
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Fusion

/-! ## The product's operand indices, axis by axis -/

/-- The left operand is read in the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contraction coordinate; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction coordinate … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … in the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times a matrix, into the zero accumulator, at row `p` and column `q`: the sum over `k` of the block's
    row against the matrix's column. -/
theorem matmul_at (x : FVec Ideal S10000x64 .f32) (w : FVec Ideal S64x64 .f32) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The stored value -/

/-- Stage 0's stored value at `(p, q)` is the fused entry of its four loaded blocks. -/
theorem pay0_at (x0 x1 : Vec Ideal S10000x64 .f32) (x2 x3 : Vec Ideal S64x64 .f32) (p : Fin 10000) (q : Fin 64) :
    k0_pay1 (F := Ideal) x0 x1 x2 x3 (ix2 p q) = fusedAt x0 x1 x2 x3 p q := by
  unfold k0_pay1
  simp only [shapeCast_self]
  show Ideal.logistic
        (matmul (F := Ideal) dot_S10000x64_S64x64_S10000x64_1_0_0_1_n_n none x0 x2 (constant (F := Ideal) S10000x64 .f32 0x00000000#32) (ix2 p q)
          + matmul (F := Ideal) dot_S10000x64_S64x64_S10000x64_1_0_0_1_n_n none x1 x3 (constant (F := Ideal) S10000x64 .f32 0x00000000#32) (ix2 p q)) * x0 (ix2 p q)
      + (Ideal.ofBits .f32 0x3F800000#32 - Ideal.logistic
        (matmul (F := Ideal) dot_S10000x64_S64x64_S10000x64_1_0_0_1_n_n none x0 x2 (constant (F := Ideal) S10000x64 .f32 0x00000000#32) (ix2 p q)
          + matmul (F := Ideal) dot_S10000x64_S64x64_S10000x64_1_0_0_1_n_n none x1 x3 (constant (F := Ideal) S10000x64 .f32 0x00000000#32) (ix2 p q))) * x1 (ix2 p q) = _
  rw [matmul_at, matmul_at]
  rfl

/-- Stage 1's body is the same text. -/
theorem pay1_at (x0 x1 : Vec Ideal S10000x64 .f32) (x2 x3 : Vec Ideal S64x64 .f32) (p : Fin 10000) (q : Fin 64) :
    k1_pay1 (F := Ideal) x0 x1 x2 x3 (ix2 p q) = fusedAt x0 x1 x2 x3 p q := by
  unfold k1_pay1
  simp only [shapeCast_self]
  show Ideal.logistic
        (matmul (F := Ideal) dot_S10000x64_S64x64_S10000x64_1_0_0_1_n_n none x0 x2 (constant (F := Ideal) S10000x64 .f32 0x00000000#32) (ix2 p q)
          + matmul (F := Ideal) dot_S10000x64_S64x64_S10000x64_1_0_0_1_n_n none x1 x3 (constant (F := Ideal) S10000x64 .f32 0x00000000#32) (ix2 p q)) * x0 (ix2 p q)
      + (Ideal.ofBits .f32 0x3F800000#32 - Ideal.logistic
        (matmul (F := Ideal) dot_S10000x64_S64x64_S10000x64_1_0_0_1_n_n none x0 x2 (constant (F := Ideal) S10000x64 .f32 0x00000000#32) (ix2 p q)
          + matmul (F := Ideal) dot_S10000x64_S64x64_S10000x64_1_0_0_1_n_n none x1 x3 (constant (F := Ideal) S10000x64 .f32 0x00000000#32) (ix2 p q))) * x1 (ix2 p q) = _
  rw [matmul_at, matmul_at]
  rfl

end Cert.KernelIdeal.Payload

end
-- ==== Proof.KernelStage0.lean ====
/-
  Stage 0, the item side: what the first fusion stage leaves in its result array.

  The stage walks 5 grid points. At point `t` it loads rows `10000·t … 10000·t + 9999` of the entity aggregate `A`
  (180000 rows) and of the item aggregate `b` (50000 rows), and both 64 × 64 matrices whole, and writes the blend back
  over the same rows of the result array, which entered the stage as a copy of `A`. So the result array ends at
  `Fusion.fusedRows`: rows below 50000 fused, the other 130000 rows of `A` kept.

  Stated at any region-entry contents `V` whose result buffer holds the same values as `A`'s buffer.
-/
import proofs.«406445_j79602923864073_3_alg».proof.Proof.Gen.KernelIdeal.Frame
import proofs.«406445_j79602923864073_3_alg».proof.Proof.KernelPayload

set_option maxRecDepth 16384

noncomputable section

namespace Cert.KernelIdeal.Stage0

open Idealize.ShloMosaic Idealize.ShloMosaic.TcCoe Idealize.ShloMosaic.ValueIdx
open Idealize.SL.Sem
open Idealize.ShloMosaic.Pipeline (Dat)
open Cert.KernelIdeal Cert.KernelIdeal.Gen Cert.Fusion

variable (V : (c : Dev nD) → (b : Ref sig .tc) → Buf (Elt Ideal) ((c : Thread nD τ).loc b))

theorem hz : (![0, 0] : Fin 2 → Nat) = fun _ => 0 := funext fun a => by fin_cases a <;> rfl

/-! ## The arrays the stage finds, and its blocks, by their literal types -/

/-- The array fused in place (its first 50000 rows), -/
abbrev arrA (c : Dev nD) : Rows 180000 := V c main_v29
/-- the aggregate blended into it, -/
abbrev arrB (c : Dev nD) : Rows 50000 := V c main_v82
/-- and the two matrices of the gate. -/
abbrev arrU (c : Dev nD) : Rows 64 := V c main_v104
abbrev arrW (c : Dev nD) : Rows 64 := V c main_v105

/-- Their blocks at grid point `t`. -/
abbrev blkA (c : Dev nD) (t : Fin cfg0.N) : Rows 10000 := iblk0 V c 0 t
abbrev blkB (c : Dev nD) (t : Fin cfg0.N) : Rows 10000 := iblk0 V c 1 t
abbrev blkU (c : Dev nD) (t : Fin cfg0.N) : Rows 64 := iblk0 V c 2 t
abbrev blkW (c : Dev nD) (t : Fin cfg0.N) : Rows 64 := iblk0 V c 3 t

/-- What the stage leaves: the first 50000 rows fused, the rest of `A` kept. -/
abbrev result (c : Dev nD) : Rows 180000 :=
  fusedRows (by omega : 50000 ≤ 180000) (arrA V c) (arrB V c) (arrU V c) (arrW V c)

/-! ## Which block each window reads at a point -/

/-- The index maps over the 5 points: the two row-blocked inputs and the output are at block row `t`, column block 0;
    the matrices at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row below 5 is some point's. -/
theorem idx_onto : ∀ q0 : Fin 5, ∃ t : Fin cfg0.N, t.val = q0.val :=
  (by decide +kernel : ∀ q0 : Fin 5, ∃ t : Fin grid0.N, t.val = q0.val)

theorem point_lt (t : Fin cfg0.N) : t.val < 5 := by
  have h : t.val < grid0.N := t.isLt
  rw [N_0] at h
  exact h

/-- Block `t` of `A` is its rows from `10000·t`. -/
theorem blkA_at (c : Dev nD) (t : Fin cfg0.N) (p : Fin 10000) (k : Fin 64) :
    blkA V c t (ix2 p k)
      = arrA V c (ix2 ⟨t.val * 10000 + p.val, by have := point_lt t; have := p.isLt; omega⟩ k) := by
  obtain ⟨e0, e1, -⟩ := idx_facts t
  show arrA V c (((cfg0.win 0).blk t).view.emb (ix2 p k)) = _
  refine congrArg (arrA V c) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- Block `t` of `b` likewise. -/
theorem blkB_at (c : Dev nD) (t : Fin cfg0.N) (p : Fin 10000) (k : Fin 64) :
    blkB V c t (ix2 p k)
      = arrB V c (ix2 ⟨t.val * 10000 + p.val, by have := point_lt t; have := p.isLt; omega⟩ k) := by
  obtain ⟨-, -, e0, e1, -⟩ := idx_facts t
  show arrB V c (((cfg0.win 1).blk t).view.emb (ix2 p k)) = _
  refine congrArg (arrB V c) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- A matrix's one block is the matrix. -/
theorem blkU_at (c : Dev nD) (t : Fin cfg0.N) (k q : Fin 64) : blkU V c t (ix2 k q) = arrU V c (ix2 k q) := by
  obtain ⟨-, -, -, -, e0, e1, -⟩ := idx_facts t
  show arrU V c (((cfg0.win 2).blk t).view.emb (ix2 k q)) = _
  refine congrArg (arrU V c) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem blkW_at (c : Dev nD) (t : Fin cfg0.N) (k q : Fin 64) : blkW V c t (ix2 k q) = arrW V c (ix2 k q) := by
  obtain ⟨-, -, -, -, -, -, e0, e1, -⟩ := idx_facts t
  show arrW V c (((cfg0.win 3).blk t).view.emb (ix2 k q)) = _
  refine congrArg (arrW V c) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-! ## What a point writes back -/

/-- The stored value at `(p, q)` of point `t` is the result's entry at row `10000·t + p`. -/
theorem stored_at (c : Dev nD) (t : Fin cfg0.N) (p : Fin 10000) (q : Fin 64) :
    k0_pay1 (F := Ideal) (blkA V c t) (blkB V c t) (blkU V c t) (blkW V c t) (ix2 p q)
      = result V c (ix2 ⟨t.val * 10000 + p.val, by have := point_lt t; have := p.isLt; omega⟩ q) :=
  (Payload.pay0_at (blkA V c t) (blkB V c t) (blkU V c t) (blkW V c t) p q).trans
    (fusedAt_block (by omega : 50000 ≤ 180000) (arrA V c) (arrB V c) (arrU V c) (arrW V c) (t.val * 10000)
      (by have := point_lt t; omega) (blkA V c t) (blkB V c t) (blkU V c t) (blkW V c t)
      (fun p k => blkA_at V c t p k) (fun p k => blkB_at V c t p k)
      (fun k q => blkU_at V c t k q) (fun k q => blkW_at V c t k q) p q)

/-- The same through the output window's block: the stored block is block `t` of the result. -/
theorem stored_block (c : Dev nD) (t : Fin cfg0.N) (j : S10000x64.Idx) :
    k0_pay1 (F := Ideal) (blkA V c t) (blkB V c t) (blkU V c t) (blkW V c t) j
      = result V c (((cfg0.win 4).blk t).view.emb j) := by
  obtain ⟨p, q, rfl⟩ : ∃ (p : Fin 10000) (q : Fin 64), j = ix2 p q := ⟨j 0, j 1, eq_ix2 j⟩
  obtain ⟨-, -, -, -, -, -, -, -, e0, e1⟩ := idx_facts t
  refine (stored_at V c t p q).trans (congrArg (result V c) (funext fun a => Fin.ext ?_))
  match a with
  | ⟨0, _⟩ => show t.val * 10000 + p.val = win0_4.index t (0 : Fin 2) * 10000 + 1 * p.val; omega
  | ⟨1, _⟩ => show q.val = win0_4.index t (1 : Fin 2) * 64 + 1 * q.val; omega

/-- WHAT POINT `t` WRITES BACK is block `t` of the result. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S10000x64) hz, View.ld_unit_zero (S := S64x64) hz]
  funext j
  exact stored_block V c t j

/-! ## The rows the points cover -/

/-- An index of the array is in point `t`'s block iff each coordinate is in the block's range on its axis. -/
theorem mem_blk (t : Fin cfg0.N) (i : S180000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v106).slice (win0_4.rect t)).set ↔ _
  rw [View.set_slice_whole, Rect.mem_set_unit]
  exact Iff.rfl

/-- The covered indices are the rows below 50000. -/
theorem covered_iff (i : S180000x64.Idx) :
    (∃ t : Fin cfg0.N, (cfg0.win 4).flush t = true ∧ i ∈ ((cfg0.win 4).blk t).view.set) ↔ (i 0).val < 50000 := by
  constructor
  · rintro ⟨t, -, hi⟩
    rw [mem_blk] at hi
    have b0 : win0_4.index t (0 : Fin 2) * 10000 ≤ (i 0).val ∧ (i 0).val < win0_4.index t (0 : Fin 2) * 10000 + 10000 := hi 0
    obtain ⟨-, -, -, -, -, -, -, -, e0, e1⟩ := idx_facts t
    have := point_lt t
    omega
  · intro h
    have hi1 : (i 1).val < 64 := (i 1).isLt
    obtain ⟨t, ht⟩ := idx_onto ⟨(i 0).val / 10000, by omega⟩
    have ht' : t.val = (i 0).val / 10000 := ht
    obtain ⟨-, -, -, -, -, -, -, -, e0, e1⟩ := idx_facts t
    refine ⟨t, flush0_4 t, ?_⟩
    rw [mem_blk]
    intro a
    match a with
    | ⟨0, _⟩ => show win0_4.index t (0 : Fin 2) * 10000 ≤ (i 0).val ∧ (i 0).val < win0_4.index t (0 : Fin 2) * 10000 + 10000; omega
    | ⟨1, _⟩ => show win0_4.index t (1 : Fin 2) * 64 ≤ (i 1).val ∧ (i 1).val < win0_4.index t (1 : Fin 2) * 64 + 64; omega

/-! ## The array after the stage -/

/-- The result array after the 5 points, when it entered holding `A`'s values: `fusedRows`. -/
theorem final (c : Dev nD) (hcopy : ∀ i : S180000x64.Idx, V c main_v106 i = arrA V c i) :
    (dat0 V c).arrAt 4 cfg0.N = result V c := by
  funext i
  rw [(dat0 V c).arrAt_eq_piecewise 4 _ (fun t _ => flushed_eq V c t) i, A_eq0]
  by_cases h : (i 0).val < 50000
  · rw [if_pos ((covered_iff i).mpr h)]
  · rw [if_neg (fun hc => h ((covered_iff i).mp hc))]
    exact (hcopy i).trans (fusedRows_of_le (by omega : 50000 ≤ 180000) (arrA V c) (arrB V c) (arrU V c) (arrW V c) i (by omega)).symm

end Cert.KernelIdeal.Stage0

end
-- ==== Proof.KernelStage1.lean ====
/-
  Stage 1, the user side: what the second fusion stage leaves in its result array.

  The stage walks 10 grid points. At point `t` it loads rows `10000·t … 10000·t + 9999` of the attribute aggregate `A`
  (150000 rows) and of the user aggregate `b` (100000 rows), and both 64 × 64 matrices whole, and writes the blend back
  over the same rows of the result array, which entered the stage as a copy of `A`. So the result array ends at
  `Fusion.fusedRows`: rows below 100000 fused, the other 50000 rows of `A` kept.

  Stated at any region-entry contents `V` whose result buffer holds the same values as `A`'s buffer.
-/
import proofs.«406445_j79602923864073_3_alg».proof.Proof.Gen.KernelIdeal.Frame
import proofs.«406445_j79602923864073_3_alg».proof.Proof.KernelPayload

set_option maxRecDepth 16384

noncomputable section

namespace Cert.KernelIdeal.Stage1

open Idealize.ShloMosaic Idealize.ShloMosaic.TcCoe Idealize.ShloMosaic.ValueIdx
open Idealize.SL.Sem
open Idealize.ShloMosaic.Pipeline (Dat)
open Cert.KernelIdeal Cert.KernelIdeal.Gen Cert.Fusion

variable (V : (c : Dev nD) → (b : Ref sig .tc) → Buf (Elt Ideal) ((c : Thread nD τ).loc b))

theorem hz : (![0, 0] : Fin 2 → Nat) = fun _ => 0 := funext fun a => by fin_cases a <;> rfl

/-! ## The arrays the stage finds, and its blocks, by their literal types -/

/-- The array fused in place (its first 100000 rows), -/
abbrev arrA (c : Dev nD) : Rows 150000 := V c main_v59
/-- the aggregate blended into it, -/
abbrev arrB (c : Dev nD) : Rows 100000 := V c main_v103
/-- and the two matrices of the gate. -/
abbrev arrU (c : Dev nD) : Rows 64 := V c main_v107
abbrev arrW (c : Dev nD) : Rows 64 := V c main_v108

/-- Their blocks at grid point `t`. -/
abbrev blkA (c : Dev nD) (t : Fin cfg1.N) : Rows 10000 := iblk1 V c 0 t
abbrev blkB (c : Dev nD) (t : Fin cfg1.N) : Rows 10000 := iblk1 V c 1 t
abbrev blkU (c : Dev nD) (t : Fin cfg1.N) : Rows 64 := iblk1 V c 2 t
abbrev blkW (c : Dev nD) (t : Fin cfg1.N) : Rows 64 := iblk1 V c 3 t

/-- What the stage leaves: the first 100000 rows fused, the rest of `A` kept. -/
abbrev result (c : Dev nD) : Rows 150000 :=
  fusedRows (by omega : 100000 ≤ 150000) (arrA V c) (arrB V c) (arrU V c) (arrW V c)

/-! ## Which block each window reads at a point -/

/-- The index maps over the 10 points: the two row-blocked inputs and the output are at block row `t`, column block 0;
    the matrices at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row below 10 is some point's. -/
theorem idx_onto : ∀ q0 : Fin 10, ∃ t : Fin cfg1.N, t.val = q0.val :=
  (by decide +kernel : ∀ q0 : Fin 10, ∃ t : Fin grid1.N, t.val = q0.val)

theorem point_lt (t : Fin cfg1.N) : t.val < 10 := by
  have h : t.val < grid1.N := t.isLt
  rw [N_1] at h
  exact h

/-- Block `t` of `A` is its rows from `10000·t`. -/
theorem blkA_at (c : Dev nD) (t : Fin cfg1.N) (p : Fin 10000) (k : Fin 64) :
    blkA V c t (ix2 p k)
      = arrA V c (ix2 ⟨t.val * 10000 + p.val, by have := point_lt t; have := p.isLt; omega⟩ k) := by
  obtain ⟨e0, e1, -⟩ := idx_facts t
  show arrA V c (((cfg1.win 0).blk t).view.emb (ix2 p k)) = _
  refine congrArg (arrA V c) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- Block `t` of `b` likewise. -/
theorem blkB_at (c : Dev nD) (t : Fin cfg1.N) (p : Fin 10000) (k : Fin 64) :
    blkB V c t (ix2 p k)
      = arrB V c (ix2 ⟨t.val * 10000 + p.val, by have := point_lt t; have := p.isLt; omega⟩ k) := by
  obtain ⟨-, -, e0, e1, -⟩ := idx_facts t
  show arrB V c (((cfg1.win 1).blk t).view.emb (ix2 p k)) = _
  refine congrArg (arrB V c) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- A matrix's one block is the matrix. -/
theorem blkU_at (c : Dev nD) (t : Fin cfg1.N) (k q : Fin 64) : blkU V c t (ix2 k q) = arrU V c (ix2 k q) := by
  obtain ⟨-, -, -, -, e0, e1, -⟩ := idx_facts t
  show arrU V c (((cfg1.win 2).blk t).view.emb (ix2 k q)) = _
  refine congrArg (arrU V c) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

theorem blkW_at (c : Dev nD) (t : Fin cfg1.N) (k q : Fin 64) : blkW V c t (ix2 k q) = arrW V c (ix2 k q) := by
  obtain ⟨-, -, -, -, -, -, e0, e1, -⟩ := idx_facts t
  show arrW V c (((cfg1.win 3).blk t).view.emb (ix2 k q)) = _
  refine congrArg (arrW V c) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-! ## What a point writes back -/

/-- The stored value at `(p, q)` of point `t` is the result's entry at row `10000·t + p`. -/
theorem stored_at (c : Dev nD) (t : Fin cfg1.N) (p : Fin 10000) (q : Fin 64) :
    k1_pay1 (F := Ideal) (blkA V c t) (blkB V c t) (blkU V c t) (blkW V c t) (ix2 p q)
      = result V c (ix2 ⟨t.val * 10000 + p.val, by have := point_lt t; have := p.isLt; omega⟩ q) :=
  (Payload.pay1_at (blkA V c t) (blkB V c t) (blkU V c t) (blkW V c t) p q).trans
    (fusedAt_block (by omega : 100000 ≤ 150000) (arrA V c) (arrB V c) (arrU V c) (arrW V c) (t.val * 10000)
      (by have := point_lt t; omega) (blkA V c t) (blkB V c t) (blkU V c t) (blkW V c t)
      (fun p k => blkA_at V c t p k) (fun p k => blkB_at V c t p k)
      (fun k q => blkU_at V c t k q) (fun k q => blkW_at V c t k q) p q)

/-- The same through the output window's block: the stored block is block `t` of the result. -/
theorem stored_block (c : Dev nD) (t : Fin cfg1.N) (j : S10000x64.Idx) :
    k1_pay1 (F := Ideal) (blkA V c t) (blkB V c t) (blkU V c t) (blkW V c t) j
      = result V c (((cfg1.win 4).blk t).view.emb j) := by
  obtain ⟨p, q, rfl⟩ : ∃ (p : Fin 10000) (q : Fin 64), j = ix2 p q := ⟨j 0, j 1, eq_ix2 j⟩
  obtain ⟨-, -, -, -, -, -, -, -, e0, e1⟩ := idx_facts t
  refine (stored_at V c t p q).trans (congrArg (result V c) (funext fun a => Fin.ext ?_))
  match a with
  | ⟨0, _⟩ => show t.val * 10000 + p.val = win1_4.index t (0 : Fin 2) * 10000 + 1 * p.val; omega
  | ⟨1, _⟩ => show q.val = win1_4.index t (1 : Fin 2) * 64 + 1 * q.val; omega

/-- WHAT POINT `t` WRITES BACK is block `t` of the result. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz]
  funext j
  exact stored_block V c t j

/-! ## The rows the points cover -/

/-- An index of the array is in point `t`'s block iff each coordinate is in the block's range on its axis. -/
theorem mem_blk (t : Fin cfg1.N) (i : S150000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v109).slice (win1_4.rect t)).set ↔ _
  rw [View.set_slice_whole, Rect.mem_set_unit]
  exact Iff.rfl

/-- The covered indices are the rows below 100000. -/
theorem covered_iff (i : S150000x64.Idx) :
    (∃ t : Fin cfg1.N, (cfg1.win 4).flush t = true ∧ i ∈ ((cfg1.win 4).blk t).view.set) ↔ (i 0).val < 100000 := by
  constructor
  · rintro ⟨t, -, hi⟩
    rw [mem_blk] at hi
    have b0 : win1_4.index t (0 : Fin 2) * 10000 ≤ (i 0).val ∧ (i 0).val < win1_4.index t (0 : Fin 2) * 10000 + 10000 := hi 0
    obtain ⟨-, -, -, -, -, -, -, -, e0, e1⟩ := idx_facts t
    have := point_lt t
    omega
  · intro h
    have hi1 : (i 1).val < 64 := (i 1).isLt
    obtain ⟨t, ht⟩ := idx_onto ⟨(i 0).val / 10000, by omega⟩
    have ht' : t.val = (i 0).val / 10000 := ht
    obtain ⟨-, -, -, -, -, -, -, -, e0, e1⟩ := idx_facts t
    refine ⟨t, flush1_4 t, ?_⟩
    rw [mem_blk]
    intro a
    match a with
    | ⟨0, _⟩ => show win1_4.index t (0 : Fin 2) * 10000 ≤ (i 0).val ∧ (i 0).val < win1_4.index t (0 : Fin 2) * 10000 + 10000; omega
    | ⟨1, _⟩ => show win1_4.index t (1 : Fin 2) * 64 ≤ (i 1).val ∧ (i 1).val < win1_4.index t (1 : Fin 2) * 64 + 64; omega

/-! ## The array after the stage -/

/-- The result array after the 10 points, when it entered holding `A`'s values: `fusedRows`. -/
theorem final (c : Dev nD) (hcopy : ∀ i : S150000x64.Idx, V c main_v109 i = arrA V c i) :
    (dat1 V c).arrAt 4 cfg1.N = result V c := by
  funext i
  rw [(dat1 V c).arrAt_eq_piecewise 4 _ (fun t _ => flushed_eq V c t) i, A_eq1]
  by_cases h : (i 0).val < 100000
  · rw [if_pos ((covered_iff i).mpr h)]
  · rw [if_neg (fun hc => h ((covered_iff i).mp hc))]
    exact (hcopy i).trans (fusedRows_of_le (by omega : 100000 ≤ 150000) (arrA V c) (arrB V c) (arrU V c) (arrW V c) i (by omega)).symm

end Cert.KernelIdeal.Stage1

end
-- ==== Proof.KernelEntry.lean ====
/-
  The arrays each fusion stage finds, as functions of the program's arguments.

  Before its first stage the kernel's program runs the same host operations as the reference: four scatter-means (a
  gather of rows, a product with relation weights, a scatter-add into segments, a division by the clipped segment
  counts) and transposes of the gate matrices. Read back through the fold of those operations, each array a stage reads
  is the very stage function the generated reading of the reference names — `val_main_v29` the entity aggregate,
  `val_main_v83` the item aggregate, `val_main_v59` the attribute aggregate, `val_main_v123` the user aggregate,
  `val_main_v84`, `val_main_v86`, `val_main_v124`, `val_main_v126` the transposed matrices — applied to the kernel's own
  argument arrays. The two programs' operation records differ in name only, so each equation closes by unfolding; no
  scatter or gather is opened. Each stage's result buffer enters its stage as a copy of the array fused in place.

  Stage 1's arrays are read through stage 0's exit: stage 0 writes none of them.
-/
import proofs.«406445_j79602923864073_3_alg».proof.Proof.Gen.KernelIdeal.Frame
import proofs.«406445_j79602923864073_3_alg».proof.Proof.Gen.ReferenceIdeal.Read

set_option maxRecDepth 16384

noncomputable section

namespace Cert.KernelIdeal.Entry

open Idealize.ShloMosaic Idealize.ShloMosaic.TcCoe Idealize.ShloMosaic.StableHlo
open Idealize.SL.Sem
open Cert.KernelIdeal Cert.KernelIdeal.Gen
open Cert.ReferenceIdeal.Read (val_main_v29 val_main_v83 val_main_v59 val_main_v123 val_main_v84 val_main_v86 val_main_v124 val_main_v126)

variable {F : FTy → Type} [FloatOps F]
variable (m : (ℓ : Loc nD τ sig) → Buf (Elt F) ℓ) (ρ : Dev nD → PrngReg)

/-! ## Stage 0's arrays -/

set_option maxHeartbeats 40000000 in
/-- The array stage 0 fuses in place is the entity aggregate. -/
theorem v29_eq (c : Dev nD) :
    V9 m ρ c main_v29 = val_main_v29 (F := F) (m ((c : Thread nD τ).loc main_arg0)) (m ((c : Thread nD τ).loc main_arg2)) (m ((c : Thread nD τ).loc main_arg6)) (m ((c : Thread nD τ).loc main_arg7)) := by
  unfold V9 W9 W8 W7 W6 W5 W4 W3 W2 W1
  simp only [hostOps0, hostOps0_1, hostOps0_2, hostOps0_3, hostOps0_4, hostOps0_5, hostOps0_6, hostOps0_7, hostOps0_8]
  after_results_simp
  rfl

set_option maxHeartbeats 40000000 in
/-- The array blended into it is the item aggregate. -/
theorem v82_eq (c : Dev nD) :
    V9 m ρ c main_v82 = val_main_v83 (F := F) (m ((c : Thread nD τ).loc main_arg1)) (m ((c : Thread nD τ).loc main_arg2)) (m ((c : Thread nD τ).loc main_arg10)) (m ((c : Thread nD τ).loc main_arg11)) := by
  unfold V9 W9 W8 W7 W6 W5 W4 W3 W2 W1
  simp only [hostOps0, hostOps0_1, hostOps0_2, hostOps0_3, hostOps0_4, hostOps0_5, hostOps0_6, hostOps0_7, hostOps0_8]
  after_results_simp
  rfl

set_option maxHeartbeats 40000000 in
/-- Its gate matrices are the transposes of the first two gate weights. -/
theorem v104_eq (c : Dev nD) : V9 m ρ c main_v104 = val_main_v84 (F := F) (m ((c : Thread nD τ).loc main_arg3)) := by
  unfold V9 W9 W8 W7 W6 W5 W4 W3 W2 W1
  simp only [hostOps0, hostOps0_1, hostOps0_2, hostOps0_3, hostOps0_4, hostOps0_5, hostOps0_6, hostOps0_7, hostOps0_8]
  after_results_simp
  rfl

set_option maxHeartbeats 40000000 in
theorem v105_eq (c : Dev nD) : V9 m ρ c main_v105 = val_main_v86 (F := F) (m ((c : Thread nD τ).loc main_arg4)) := by
  unfold V9 W9 W8 W7 W6 W5 W4 W3 W2 W1
  simp only [hostOps0, hostOps0_1, hostOps0_2, hostOps0_3, hostOps0_4, hostOps0_5, hostOps0_6, hostOps0_7, hostOps0_8]
  after_results_simp
  rfl

/-- Its result buffer enters as a copy of the array fused in place. -/
theorem v106_eq (c : Dev nD) : V9 m ρ c main_v106 = V9 m ρ c main_v29 := by
  show StableHlo.after hostOps0_8 (W8 m ρ c) (Proc.devRef .tc main_v106) = StableHlo.after hostOps0_8 (W8 m ρ c) (Proc.devRef .tc main_v29)
  generalize W8 m ρ c = Wp
  simp only [hostOps0_8]
  after_results_simp
  rfl

/-! ## Stage 1's arrays -/

/-- A buffer stage 0 does not write and the operations between the stages do not write is, at stage 1's entry, what
    it was at stage 0's entry. -/
theorem v11_of_v9 (c : Dev nD) (b : Ref sig .tc) (hb : ∀ w, Pipeline.arrRef spec0 w ≠ b)
    (h1 : b ≠ main_v107) (h2 : b ≠ main_v108) (h3 : b ≠ main_v109) : V11 m ρ c b = V9 m ρ c b := by
  show StableHlo.after hostOps1 (W10 m ρ c) (Proc.devRef .tc b) = W9 m ρ c (Proc.devRef .tc b)
  rw [← W10_of_ne m ρ c b hb]
  generalize W10 m ρ c = Wp
  simp only [hostOps1, after_cons, after_nil]
  rw [unary_result_ne _ _ _ _ _ _ h3, unary_result_ne _ _ _ _ _ _ h2, unary_result_ne _ _ _ _ _ _ h1]

set_option maxHeartbeats 40000000 in
/-- The array stage 1 fuses in place is the attribute aggregate. -/
theorem v59_eq (c : Dev nD) :
    V11 m ρ c main_v59 = val_main_v59 (F := F) (m ((c : Thread nD τ).loc main_arg1)) (m ((c : Thread nD τ).loc main_arg2)) (m ((c : Thread nD τ).loc main_arg8)) (m ((c : Thread nD τ).loc main_arg9)) := by
  rw [v11_of_v9 m ρ c main_v59 (by decide) (by decide) (by decide) (by decide)]
  unfold V9 W9 W8 W7 W6 W5 W4 W3 W2 W1
  simp only [hostOps0, hostOps0_1, hostOps0_2, hostOps0_3, hostOps0_4, hostOps0_5, hostOps0_6, hostOps0_7, hostOps0_8]
  after_results_simp
  rfl

set_option maxHeartbeats 40000000 in
/-- The array blended into it is the user aggregate. -/
theorem v103_eq (c : Dev nD) :
    V11 m ρ c main_v103 = val_main_v123 (F := F) (m ((c : Thread nD τ).loc main_arg0)) (m ((c : Thread nD τ).loc main_arg2)) (m ((c : Thread nD τ).loc main_arg10)) (m ((c : Thread nD τ).loc main_arg11)) := by
  rw [v11_of_v9 m ρ c main_v103 (by decide) (by decide) (by decide) (by decide)]
  unfold V9 W9 W8 W7 W6 W5 W4 W3 W2 W1
  simp only [hostOps0, hostOps0_1, hostOps0_2, hostOps0_3, hostOps0_4, hostOps0_5, hostOps0_6, hostOps0_7, hostOps0_8]
  after_results_simp
  rfl

set_option maxHeartbeats 40000000 in
/-- An argument array is, at stage 0's entry, as launched. -/
theorem arg4_at9 (c : Dev nD) : V9 m ρ c main_arg4 = (m ((c : Thread nD τ).loc main_arg4)) := by
  unfold V9 W9 W8 W7 W6 W5 W4 W3 W2 W1
  simp only [hostOps0, hostOps0_1, hostOps0_2, hostOps0_3, hostOps0_4, hostOps0_5, hostOps0_6, hostOps0_7, hostOps0_8]
  after_results_simp
set_option maxHeartbeats 40000000 in
theorem arg5_at9 (c : Dev nD) : V9 m ρ c main_arg5 = (m ((c : Thread nD τ).loc main_arg5)) := by
  unfold V9 W9 W8 W7 W6 W5 W4 W3 W2 W1
  simp only [hostOps0, hostOps0_1, hostOps0_2, hostOps0_3, hostOps0_4, hostOps0_5, hostOps0_6, hostOps0_7, hostOps0_8]
  after_results_simp

/-- Its gate matrices are the transposes of the third and the second gate weights. -/
theorem v107_eq (c : Dev nD) : V11 m ρ c main_v107 = val_main_v126 (F := F) (m ((c : Thread nD τ).loc main_arg5)) := by
  have h : V11 m ρ c main_v107 = transpose S64x64 [1, 0] (W10 m ρ c (Proc.devRef .tc main_arg5)) transposes_S64x64_S64x64_1_0 := by
    show StableHlo.after hostOps1 (W10 m ρ c) (Proc.devRef .tc main_v107) = _
    generalize W10 m ρ c = Wp
    simp only [hostOps1]
    after_results_simp
  rw [h, W10_of_ne m ρ c main_arg5 (by decide)]
  exact congrArg (fun x => transpose S64x64 [1, 0] x transposes_S64x64_S64x64_1_0) (arg5_at9 m ρ c)

theorem v108_eq (c : Dev nD) : V11 m ρ c main_v108 = val_main_v124 (F := F) (m ((c : Thread nD τ).loc main_arg4)) := by
  have h : V11 m ρ c main_v108 = transpose S64x64 [1, 0] (W10 m ρ c (Proc.devRef .tc main_arg4)) transposes_S64x64_S64x64_1_0 := by
    show StableHlo.after hostOps1 (W10 m ρ c) (Proc.devRef .tc main_v108) = _
    generalize W10 m ρ c = Wp
    simp only [hostOps1]
    after_results_simp
  rw [h, W10_of_ne m ρ c main_arg4 (by decide)]
  exact congrArg (fun x => transpose S64x64 [1, 0] x transposes_S64x64_S64x64_1_0) (arg4_at9 m ρ c)

/-- Its result buffer enters as a copy of the array fused in place. -/
theorem v109_eq (c : Dev nD) : V11 m ρ c main_v109 = V11 m ρ c main_v59 := by
  show StableHlo.after hostOps1 (W10 m ρ c) (Proc.devRef .tc main_v109) = StableHlo.after hostOps1 (W10 m ρ c) (Proc.devRef .tc main_v59)
  generalize W10 m ρ c = Wp
  simp only [hostOps1]
  after_results_simp
  rfl

/-! ## The two results at the last boundary -/

/-- The second result is what stage 1 leaves in its output window's array. -/
theorem res1_eq (c : Dev nD) : W12 m ρ c (Proc.devRef .tc main_v109) = (dat1 (V11 m ρ) c).arrAt 4 cfg1.N :=
  W12_arr m ρ c 4

/-- The first result is what stage 0 leaves in its output window's array: neither the operations between the stages nor
    stage 1 write it. -/
theorem res0_eq (c : Dev nD) : W12 m ρ c (Proc.devRef .tc main_v106) = (dat0 (V9 m ρ) c).arrAt 4 cfg0.N := by
  rw [W12_of_ne m ρ c main_v106 (by decide)]
  refine Eq.trans ?_ (W10_arr m ρ c 4)
  show StableHlo.after hostOps1 (W10 m ρ c) (Proc.devRef .tc main_v106) = W10 m ρ c (Proc.devRef .tc main_v106)
  generalize W10 m ρ c = Wp
  simp only [hostOps1]
  after_results_simp

end Cert.KernelIdeal.Entry

end
-- ==== Proof.KernelValue.lean ====
/-
  The kernel's two results as fused arrays of its arguments.

  Each stage leaves `Fusion.fusedRows` of the arrays it finds (one module per stage); the arrays it finds are the
  aggregates and transposed matrices of the argument arrays (the entry-values module); the first result is untouched
  after stage 0 and the second is stage 1's output. Put together: the run of the idealized kernel ends with

    result 0 = fusedRows (entity aggregate) (item aggregate) (gate₁ᵀ) (gate₂ᵀ)        — 50000 of 180000 rows fused,
    result 1 = fusedRows (attribute aggregate) (user aggregate) (gate₃ᵀ) (gate₂ᵀ)     — 100000 of 150000 rows fused,

  every array named by the stage function the reading of the reference gives it.
-/
import proofs.«406445_j79602923864073_3_alg».proof.Proof.KernelRun
import proofs.«406445_j79602923864073_3_alg».proof.Proof.KernelStage0
import proofs.«406445_j79602923864073_3_alg».proof.Proof.KernelStage1
import proofs.«406445_j79602923864073_3_alg».proof.Proof.KernelEntry

set_option maxRecDepth 16384

noncomputable section

namespace Cert.KernelIdeal.Outputs

open Idealize.ShloMosaic Idealize.ShloMosaic.TcCoe
open Idealize.SL.Sem
open Cert.KernelIdeal Cert.KernelIdeal.Gen Cert.Fusion
open Cert.ReferenceIdeal.Read (val_main_v29 val_main_v83 val_main_v59 val_main_v123 val_main_v84 val_main_v86 val_main_v124 val_main_v126)

variable (m : (ℓ : Loc nD τ sig) → Buf (Elt Ideal) ℓ) (ρ : Dev nD → PrngReg)

/-- The first result array after the run. -/
theorem out0_eq (c : Dev nD) :
    W12 m ρ c (Proc.devRef .tc main_v106)
      = fusedRows (by omega : 50000 ≤ 180000) (val_main_v29 (F := Ideal) (m ((c : Thread nD τ).loc main_arg0)) (m ((c : Thread nD τ).loc main_arg2)) (m ((c : Thread nD τ).loc main_arg6)) (m ((c : Thread nD τ).loc main_arg7))) (val_main_v83 (F := Ideal) (m ((c : Thread nD τ).loc main_arg1)) (m ((c : Thread nD τ).loc main_arg2)) (m ((c : Thread nD τ).loc main_arg10)) (m ((c : Thread nD τ).loc main_arg11))) (val_main_v84 (F := Ideal) (m ((c : Thread nD τ).loc main_arg3))) (val_main_v86 (F := Ideal) (m ((c : Thread nD τ).loc main_arg4))) := by
  rw [Entry.res0_eq, Stage0.final (V9 m ρ) c (fun i => congrFun (Entry.v106_eq m ρ c) i)]
  show fusedRows (by omega : 50000 ≤ 180000) (V9 m ρ c main_v29) (V9 m ρ c main_v82) (V9 m ρ c main_v104) (V9 m ρ c main_v105) = _
  rw [Entry.v29_eq, Entry.v82_eq, Entry.v104_eq, Entry.v105_eq]

/-- The second result array after the run. -/
theorem out1_eq (c : Dev nD) :
    W12 m ρ c (Proc.devRef .tc main_v109)
      = fusedRows (by omega : 100000 ≤ 150000) (val_main_v59 (F := Ideal) (m ((c : Thread nD τ).loc main_arg1)) (m ((c : Thread nD τ).loc main_arg2)) (m ((c : Thread nD τ).loc main_arg8)) (m ((c : Thread nD τ).loc main_arg9))) (val_main_v123 (F := Ideal) (m ((c : Thread nD τ).loc main_arg0)) (m ((c : Thread nD τ).loc main_arg2)) (m ((c : Thread nD τ).loc main_arg10)) (m ((c : Thread nD τ).loc main_arg11))) (val_main_v126 (F := Ideal) (m ((c : Thread nD τ).loc main_arg5))) (val_main_v124 (F := Ideal) (m ((c : Thread nD τ).loc main_arg4))) := by
  rw [Entry.res1_eq, Stage1.final (V11 m ρ) c (fun i => congrFun (Entry.v109_eq m ρ c) i)]
  show fusedRows (by omega : 100000 ≤ 150000) (V11 m ρ c main_v59) (V11 m ρ c main_v103) (V11 m ρ c main_v107) (V11 m ρ c main_v108) = _
  rw [Entry.v59_eq, Entry.v103_eq, Entry.v107_eq, Entry.v108_eq]

/-- THE KERNEL'S RUN, READ: every weakly fair execution terminates, nothing faulting, with the two results at their
    fused arrays and the arguments as launched. -/
theorem run : θ_run defs (onTc (τ := τ) (main (F := Ideal))) ⟨m, fun _ => 0, ρ⟩ (fun r => ∀ c : Dev nD,
      r.2.mem ((c.tc : Thread nD τ).loc main_v106) = fusedRows (by omega : 50000 ≤ 180000) (val_main_v29 (F := Ideal) (m ((c : Thread nD τ).loc main_arg0)) (m ((c : Thread nD τ).loc main_arg2)) (m ((c : Thread nD τ).loc main_arg6)) (m ((c : Thread nD τ).loc main_arg7))) (val_main_v83 (F := Ideal) (m ((c : Thread nD τ).loc main_arg1)) (m ((c : Thread nD τ).loc main_arg2)) (m ((c : Thread nD τ).loc main_arg10)) (m ((c : Thread nD τ).loc main_arg11))) (val_main_v84 (F := Ideal) (m ((c : Thread nD τ).loc main_arg3))) (val_main_v86 (F := Ideal) (m ((c : Thread nD τ).loc main_arg4)))
      ∧ r.2.mem ((c.tc : Thread nD τ).loc main_v109) = fusedRows (by omega : 100000 ≤ 150000) (val_main_v59 (F := Ideal) (m ((c : Thread nD τ).loc main_arg1)) (m ((c : Thread nD τ).loc main_arg2)) (m ((c : Thread nD τ).loc main_arg8)) (m ((c : Thread nD τ).loc main_arg9))) (val_main_v123 (F := Ideal) (m ((c : Thread nD τ).loc main_arg0)) (m ((c : Thread nD τ).loc main_arg2)) (m ((c : Thread nD τ).loc main_arg10)) (m ((c : Thread nD τ).loc main_arg11))) (val_main_v126 (F := Ideal) (m ((c : Thread nD τ).loc main_arg5))) (val_main_v124 (F := Ideal) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out0_eq m ρ c), (h c).2.1.trans (out1_eq m ρ c), (h c).2.2⟩)
    (Results.run m ρ)

end Cert.KernelIdeal.Outputs

end
-- ==== Proof.RefValue.lean ====
/-
  The reference's two results as fused arrays.

  The reference computes, for the item side, the blend on the first 50000 rows of the entity aggregate `A` against the
  item aggregate `b` and then joins the blended rows with the other 130000 rows of `A`; that is `Fusion.fusedRows` of
  `A`, `b` and the two transposed gate matrices. Its logistic function is spelt out as `1 / (1 + e^(−s))`, which on the
  extended reals is the logistic function by definition. The user side is the same with 100000 of 150000 rows, except
  that the gate's argument adds its two matrix products in the other order; addition of extended reals commutes.

  Every intermediate array is named as the generated reading of the reference names it (a stage `val_main_vN` of
  the argument arrays), so that the other program's values can be stated over the same stages.
-/
import proofs.«406445_j79602923864073_3_alg».proof.Proof.Gen.ReferenceIdeal.Read
import proofs.«406445_j79602923864073_3_alg».proof.Proof.Fusion

set_option maxRecDepth 16384

noncomputable section

open scoped BigOperators

namespace Cert.ReferenceIdeal.RefValue

open Idealize.ShloMosaic Idealize.ShloMosaic.ValueIdx
open Cert.ReferenceIdeal Cert.ReferenceIdeal.Read Cert.Fusion
open Cert.ReferenceIdeal.Facts₀ Cert.ReferenceIdeal.Facts

variable (x0 : (⟨S180000x64, .f32⟩ : BufTy).Contents (Elt Ideal)) (x1 : (⟨S150000x64, .f32⟩ : BufTy).Contents (Elt Ideal)) (x2 : (⟨S32x64, .f32⟩ : BufTy).Contents (Elt Ideal))
  (x3 x4 x5 : (⟨S64x64, .f32⟩ : BufTy).Contents (Elt Ideal)) (x6 : (⟨S2x1500000, .i32⟩ : BufTy).Contents (Elt Ideal)) (x7 : (⟨S1500000, .i32⟩ : BufTy).Contents (Elt Ideal))
  (x8 : (⟨S2x1000000, .i32⟩ : BufTy).Contents (Elt Ideal)) (x9 : (⟨S1000000, .i32⟩ : BufTy).Contents (Elt Ideal)) (x10 x11 : (⟨S1500000, .i32⟩ : BufTy).Contents (Elt Ideal))

/-! ## The item side -/

/-- The entity aggregate, the item aggregate, and the two transposed gate matrices. -/
abbrev itemA : Rows 180000 := val_main_v29 (F := Ideal) x0 x2 x6 x7
abbrev itemB : Rows 50000 := val_main_v83 (F := Ideal) x1 x2 x10 x11
abbrev itemU : Rows 64 := val_main_v84 (F := Ideal) x3
abbrev itemW : Rows 64 := val_main_v86 (F := Ideal) x4

/-- The index functions of the generated reading, at an index given by its coordinates. -/
theorem lidx85 (p : Fin 50000) (q k : Fin 64) : lidx_main_v85 (ix2 p q) k = ix2 p k :=
  funext fun a => by match a with | ⟨0, _⟩ => rfl | ⟨1, _⟩ => rfl
theorem ridx85 (p : Fin 50000) (q k : Fin 64) : ridx_main_v85 (ix2 p q) k = ix2 k q :=
  funext fun a => by match a with | ⟨0, _⟩ => rfl | ⟨1, _⟩ => rfl
theorem lidx87 (p : Fin 50000) (q k : Fin 64) : lidx_main_v87 (ix2 p q) k = ix2 p k :=
  funext fun a => by match a with | ⟨0, _⟩ => rfl | ⟨1, _⟩ => rfl
theorem ridx87 (p : Fin 50000) (q k : Fin 64) : ridx_main_v87 (ix2 p q) k = ix2 k q :=
  funext fun a => by match a with | ⟨0, _⟩ => rfl | ⟨1, _⟩ => rfl
theorem idx60 (p : Fin 50000) (k : Fin 64) : idx_main_v60 (ix2 p k) = ix2 ⟨p.val, by have := p.isLt; omega⟩ k :=
  funext fun a => by match a with | ⟨0, _⟩ => rfl | ⟨1, _⟩ => rfl

/-- The gate's argument on the item side. -/
theorem itemGate_at (p : Fin 50000) (q : Fin 64) :
    val_main_v88 (F := Ideal) x0 x1 x2 x3 x4 x6 x7 x10 x11 (ix2 p q)
      = gateArg (topRows (by omega : 50000 ≤ 180000) (itemA x0 x2 x6 x7)) (itemB x1 x2 x10 x11) (itemU x3) (itemW x4) p q := by
  rw [val_main_v88_apply, val_main_v85_apply, val_main_v87_apply]
  simp only [lidx85, ridx85, lidx87, ridx87, val_main_v60_apply, idx60]
  rfl

/-- The blended rows of the item side, entry by entry. -/
theorem itemTop_at (p : Fin 50000) (q : Fin 64) :
    val_main_v99 (F := Ideal) x0 x1 x2 x3 x4 x6 x7 x10 x11 (ix2 p q)
      = fusedAt (topRows (by omega : 50000 ≤ 180000) (itemA x0 x2 x6 x7)) (itemB x1 x2 x10 x11) (itemU x3) (itemW x4) p q := by
  rw [val_main_v99_apply, val_main_v95_apply, val_main_v98_apply, val_main_v97_apply, val_main_v94_apply,
    val_main_v92_apply, val_main_v90_apply, val_main_v89_apply, itemGate_at, val_main_v93_apply, val_main_v91_apply,
    val_main_v96_apply, val_main_cst_20_apply, val_main_cst_21_apply, val_main_cst_22_apply, val_main_v60_apply, idx60,
    logistic_expanded]
  rfl

/-- THE ITEM-SIDE RESULT: the blended rows joined with the kept rows. -/
theorem item_eq :
    val_main_v141 (F := Ideal) x0 x1 x2 x3 x4 x6 x7 x10 x11
      = fusedRows (by omega : 50000 ≤ 180000) (itemA x0 x2 x6 x7) (itemB x1 x2 x10 x11) (itemU x3) (itemW x4) := by
  funext i
  obtain ⟨P, q, rfl⟩ : ∃ (P : Fin 180000) (q : Fin 64), i = ix2 P q := ⟨i 0, i 1, eq_ix2 i⟩
  unfold val_main_v141
  by_cases h : P.val < 50000
  · rw [fusedRows_of_lt _ _ _ _ _ P q h, ← itemTop_at]
    exact concatenate_pair_apply_left (t := S180000x64) (s₁ := S50000x64) (s₂ := S130000x64) (0 : Fin 2) _ _ concatenates_S50000x64_S130000x64_S180000x64_d0 (ix2 P q) rfl
      (ix2 (n0 := 50000) (n1 := 64) ⟨P.val, h⟩ q) (fun b => by match b with | ⟨0, _⟩ => rfl | ⟨1, _⟩ => rfl)
  · have hge : 50000 ≤ P.val := by omega
    rw [fusedRows_of_le _ _ _ _ _ (ix2 P q) hge]
    rw [concatenate_pair_apply_right (t := S180000x64) (s₁ := S50000x64) (s₂ := S130000x64) (0 : Fin 2) _ _ concatenates_S50000x64_S130000x64_S180000x64_d0 (ix2 P q) rfl rfl
      (ix2 (n0 := 130000) (n1 := 64) ⟨P.val - 50000, by have := P.isLt; omega⟩ q)
      (fun b hb => by match b with | ⟨0, _⟩ => exact absurd rfl hb | ⟨1, _⟩ => rfl)
      (by show P.val - 50000 + 50000 = P.val; omega)]
    rw [val_main_v140_apply]
    refine congrArg (itemA x0 x2 x6 x7) (funext fun a => Fin.ext ?_)
    match a with
    | ⟨0, _⟩ => show 50000 + (P.val - 50000) = P.val; omega
    | ⟨1, _⟩ => rfl

/-! ## The user side -/

/-- The attribute aggregate, the user aggregate, and the two transposed gate matrices, in the order the kernel's stage
    takes them: the array fused in place first. -/
abbrev userA : Rows 150000 := val_main_v59 (F := Ideal) x1 x2 x8 x9
abbrev userB : Rows 100000 := val_main_v123 (F := Ideal) x0 x2 x10 x11
abbrev userU : Rows 64 := val_main_v126 (F := Ideal) x5
abbrev userW : Rows 64 := val_main_v124 (F := Ideal) x4

theorem lidx125 (p : Fin 100000) (q k : Fin 64) : lidx_main_v125 (ix2 p q) k = ix2 p k :=
  funext fun a => by match a with | ⟨0, _⟩ => rfl | ⟨1, _⟩ => rfl
theorem ridx125 (p : Fin 100000) (q k : Fin 64) : ridx_main_v125 (ix2 p q) k = ix2 k q :=
  funext fun a => by match a with | ⟨0, _⟩ => rfl | ⟨1, _⟩ => rfl
theorem lidx127 (p : Fin 100000) (q k : Fin 64) : lidx_main_v127 (ix2 p q) k = ix2 p k :=
  funext fun a => by match a with | ⟨0, _⟩ => rfl | ⟨1, _⟩ => rfl
theorem ridx127 (p : Fin 100000) (q k : Fin 64) : ridx_main_v127 (ix2 p q) k = ix2 k q :=
  funext fun a => by match a with | ⟨0, _⟩ => rfl | ⟨1, _⟩ => rfl
theorem idx100 (p : Fin 100000) (k : Fin 64) : idx_main_v100 (ix2 p k) = ix2 ⟨p.val, by have := p.isLt; omega⟩ k :=
  funext fun a => by match a with | ⟨0, _⟩ => rfl | ⟨1, _⟩ => rfl

/-- The gate's argument on the user side: the reference adds the user aggregate's product first. -/
theorem userGate_at (p : Fin 100000) (q : Fin 64) :
    val_main_v128 (F := Ideal) x0 x1 x2 x4 x5 x8 x9 x10 x11 (ix2 p q)
      = gateArg (topRows (by omega : 100000 ≤ 150000) (userA x1 x2 x8 x9)) (userB x0 x2 x10 x11) (userU x5) (userW x4) p q := by
  rw [val_main_v128_apply, val_main_v125_apply, val_main_v127_apply]
  simp only [lidx125, ridx125, lidx127, ridx127, val_main_v100_apply, idx100]
  exact gateArg_comm (topRows (by omega : 100000 ≤ 150000) (userA x1 x2 x8 x9)) (userB x0 x2 x10 x11) (userU x5) (userW x4) p q

/-- The blended rows of the user side, entry by entry. -/
theorem userTop_at (p : Fin 100000) (q : Fin 64) :
    val_main_v139 (F := Ideal) x0 x1 x2 x4 x5 x8 x9 x10 x11 (ix2 p q)
      = fusedAt (topRows (by omega : 100000 ≤ 150000) (userA x1 x2 x8 x9)) (userB x0 x2 x10 x11) (userU x5) (userW x4) p q := by
  rw [val_main_v139_apply, val_main_v135_apply, val_main_v138_apply, val_main_v137_apply, val_main_v134_apply,
    val_main_v132_apply, val_main_v130_apply, val_main_v129_apply, userGate_at, val_main_v133_apply, val_main_v131_apply,
    val_main_v136_apply, val_main_cst_29_apply, val_main_cst_30_apply, val_main_cst_31_apply, val_main_v100_apply, idx100,
    logistic_expanded]
  rfl

/-- THE USER-SIDE RESULT. -/
theorem user_eq :
    val_main_v143 (F := Ideal) x0 x1 x2 x4 x5 x8 x9 x10 x11
      = fusedRows (by omega : 100000 ≤ 150000) (userA x1 x2 x8 x9) (userB x0 x2 x10 x11) (userU x5) (userW x4) := by
  funext i
  obtain ⟨P, q, rfl⟩ : ∃ (P : Fin 150000) (q : Fin 64), i = ix2 P q := ⟨i 0, i 1, eq_ix2 i⟩
  unfold val_main_v143
  by_cases h : P.val < 100000
  · rw [fusedRows_of_lt _ _ _ _ _ P q h, ← userTop_at]
    exact concatenate_pair_apply_left (t := S150000x64) (s₁ := S100000x64) (s₂ := S50000x64) (0 : Fin 2) _ _ concatenates_S100000x64_S50000x64_S150000x64_d0 (ix2 P q) rfl
      (ix2 (n0 := 100000) (n1 := 64) ⟨P.val, h⟩ q) (fun b => by match b with | ⟨0, _⟩ => rfl | ⟨1, _⟩ => rfl)
  · have hge : 100000 ≤ P.val := by omega
    rw [fusedRows_of_le _ _ _ _ _ (ix2 P q) hge]
    rw [concatenate_pair_apply_right (t := S150000x64) (s₁ := S100000x64) (s₂ := S50000x64) (0 : Fin 2) _ _ concatenates_S100000x64_S50000x64_S150000x64_d0 (ix2 P q) rfl rfl
      (ix2 (n0 := 50000) (n1 := 64) ⟨P.val - 100000, by have := P.isLt; omega⟩ q)
      (fun b hb => by match b with | ⟨0, _⟩ => exact absurd rfl hb | ⟨1, _⟩ => rfl)
      (by show P.val - 100000 + 100000 = P.val; omega)]
    rw [val_main_v142_apply]
    refine congrArg (userA x1 x2 x8 x9) (funext fun a => Fin.ext ?_)
    match a with
    | ⟨0, _⟩ => show 100000 + (P.val - 100000) = P.val; omega
    | ⟨1, _⟩ => rfl

end Cert.ReferenceIdeal.RefValue

end
-- ==== Proof.lean ====
/-
  The proof of `Cert.Claim`: a gated-fusion kernel (two pallas_calls that blend, in place, the first rows of two
  scatter-mean aggregates against two others under a sigmoid gate) against its jnp reference.

  Both programs compute the four aggregates by the same host operations. Each stage of the kernel then overwrites the
  first rows of one aggregate `A` with  g ⊙ A + (1 − g) ⊙ b,  g = logistic(A·u + b·v),  block by block, and the reference
  does the same on a slice of `A` and joins the result with `A`'s other rows. On the extended reals both are the array
  `Fusion.fusedRows A b u v`: a matrix product is the exact sum either way it is tiled, the kernel's one-operation
  logistic and the reference's `1 / (1 + e^(−s))` are one function, and the reference's other order of the two products
  in the user-side gate is commutativity of addition. No finiteness is used.

  Modules: Fusion (the mathematics); KernelPayload, KernelStage0, KernelStage1 (what a grid point stores; what each stage
  leaves); KernelEntry (the arrays each stage finds); KernelRun, KernelValue (the kernel's run and its results);
  RefValue (the reference's results). The frames of the two kernel programs and the reference's run are the generated
  ones; the idealization rewrote nothing.
-/
import proofs.«406445_j79602923864073_3_alg».proof.Defs
import proofs.«406445_j79602923864073_3_alg».proof.Proof.Gen.Kernel.Frame
import proofs.«406445_j79602923864073_3_alg».proof.Proof.Gen.Pre_finite_inputs
import proofs.«406445_j79602923864073_3_alg».proof.Proof.KernelValue
import proofs.«406445_j79602923864073_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two fused arrays. -/
theorem algebraic : Cert.algebraic_KernelIdeal_ReferenceIdeal := by
  intro m ρ m' ρ' _ hagree
  refine ⟨_, _, Cert.KernelIdeal.Outputs.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v141_eq, Cert.ReferenceIdeal.RefValue.item_eq,
      (hagree c).1, (hagree c).2.1, (hagree c).2.2.1, (hagree c).2.2.2.1, (hagree c).2.2.2.2.1, (hagree c).2.2.2.2.2.2.1, (hagree c).2.2.2.2.2.2.2.1, (hagree c).2.2.2.2.2.2.2.2.2.2.1, (hagree c).2.2.2.2.2.2.2.2.2.2.2]
  · rw [Cert.ReferenceIdeal.Read.val_main_v143_eq, Cert.ReferenceIdeal.RefValue.user_eq,
      (hagree c).1, (hagree c).2.1, (hagree c).2.2.1, (hagree c).2.2.2.2.1, (hagree c).2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
